-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S8x1x4096 : Shape := ⟨3, ![8, 1, 4096]⟩
abbrev S1x512x3 : Shape := ⟨3, ![1, 512, 3]⟩
abbrev S1x3x4096 : Shape := ⟨3, ![1, 3, 4096]⟩
abbrev S1x512x1 : Shape := ⟨3, ![1, 512, 1]⟩
abbrev S1x1x4096 : Shape := ⟨3, ![1, 1, 4096]⟩
abbrev S1x4096 : Shape := ⟨2, ![1, 4096]⟩
abbrev S512x3 : Shape := ⟨2, ![512, 3]⟩
abbrev S3x4096 : Shape := ⟨2, ![3, 4096]⟩
abbrev S512 : Shape := ⟨1, ![512]⟩
abbrev S512x1 : Shape := ⟨2, ![512, 1]⟩
abbrev S4096 : Shape := ⟨1, ![4096]⟩
abbrev S512x4096 : Shape := ⟨2, ![512, 4096]⟩
abbrev S8x4096 : Shape := ⟨2, ![8, 4096]⟩
abbrev S_ : Shape := ⟨0, ![]⟩
abbrev S8 : Shape := ⟨1, ![8]⟩
abbrev S8x1 : Shape := ⟨2, ![8, 1]⟩

abbrev nBuf : Space → Nat
  | .hbm => 108
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x1x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .f32⟩
  | .hbm, ⟨13, _⟩ => ⟨S_, .i32⟩
  | .hbm, ⟨14, _⟩ => ⟨S_, .f32⟩
  | .hbm, ⟨15, _⟩ => ⟨S8, .f32⟩
  | .hbm, ⟨16, _⟩ => ⟨S8x1, .f32⟩
  | .hbm, ⟨17, _⟩ => ⟨S_, .f32⟩
  | .hbm, ⟨18, _⟩ => ⟨S8x1, .f32⟩
  | .hbm, ⟨19, _⟩ => ⟨S8x1, .f32⟩
  | .hbm, ⟨20, _⟩ => ⟨S8x4096, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8x1, .f32⟩
  | .hbm, ⟨36, _⟩ => ⟨S8x1, .f32⟩
  | .hbm, ⟨37, _⟩ => ⟨S8x1, .f32⟩
  | .hbm, ⟨38, _⟩ => ⟨S8x4096, .f32⟩
  | .hbm, ⟨39, _⟩ => ⟨S8x4096, .f32⟩
  | .hbm, ⟨40, _⟩ => ⟨S_, .f32⟩
  | .hbm, ⟨41, _⟩ => ⟨S8x1, .f32⟩
  | .hbm, ⟨42, _⟩ => ⟨S8x1, .f32⟩
  | .hbm, ⟨43, _⟩ => ⟨S8x4096, .f32⟩
  | .hbm, ⟨44, _⟩ => ⟨S8x4096, .i1⟩
  | .hbm, ⟨45, _⟩ => ⟨S8x4096, .i32⟩
  | .hbm, ⟨46, _⟩ => ⟨S_, .i32⟩
  | .hbm, ⟨47, _⟩ => ⟨S8, .i32⟩
  | .hbm, ⟨48, _⟩ => ⟨S8, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S_, .f32⟩
  | .hbm, ⟨59, _⟩ => ⟨S8x1, .f32⟩
  | .hbm, ⟨60, _⟩ => ⟨S8x1, .f32⟩
  | .hbm, ⟨61, _⟩ => ⟨S_, .i32⟩
  | .hbm, ⟨62, _⟩ => ⟨S_, .f32⟩
  | .hbm, ⟨63, _⟩ => ⟨S8, .f32⟩
  | .hbm, ⟨64, _⟩ => ⟨S8x1, .f32⟩
  | .hbm, ⟨65, _⟩ => ⟨S_, .f32⟩
  | .hbm, ⟨66, _⟩ => ⟨S8x1, .f32⟩
  | .hbm, ⟨67, _⟩ => ⟨S8x1, .f32⟩
  | .hbm, ⟨68, _⟩ => ⟨S8x4096, .f32⟩
  | .hbm, ⟨69, _⟩ => ⟨S8x4096, .f32⟩
  | .hbm, ⟨70, _⟩ => ⟨S8x4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8, .f32⟩
  | .hbm, ⟨76, _⟩ => ⟨S8x1, .f32⟩
  | .hbm, ⟨77, _⟩ => ⟨S8x1, .f32⟩
  | .hbm, ⟨78, _⟩ => ⟨S8x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S8x1, .f32⟩
  | .hbm, ⟨84, _⟩ => ⟨S8x1, .f32⟩
  | .hbm, ⟨85, _⟩ => ⟨S8x1, .f32⟩
  | .hbm, ⟨86, _⟩ => ⟨S8x4096, .f32⟩
  | .hbm, ⟨87, _⟩ => ⟨S8x4096, .f32⟩
  | .hbm, ⟨88, _⟩ => ⟨S_, .f32⟩
  | .hbm, ⟨89, _⟩ => ⟨S8x1, .f32⟩
  | .hbm, ⟨90, _⟩ => ⟨S8x1, .f32⟩
  | .hbm, ⟨91, _⟩ => ⟨S8x4096, .f32⟩
  | .hbm, ⟨92, _⟩ => ⟨S8x4096, .i1⟩
  | .hbm, ⟨93, _⟩ => ⟨S8x4096, .i32⟩
  | .hbm, ⟨94, _⟩ => ⟨S_, .i32⟩
  | .hbm, ⟨95, _⟩ => ⟨S8, .i32⟩
  | .hbm, ⟨96, _⟩ => ⟨S8, .f32⟩
  | .hbm, ⟨97, _⟩ => ⟨S_, .f32⟩
  | .hbm, ⟨98, _⟩ => ⟨S8x4096, .f32⟩
  | .hbm, ⟨99, _⟩ => ⟨S8x4096, .f32⟩
  | .hbm, ⟨100, _⟩ => ⟨S_, .f32⟩
  | .hbm, ⟨101, _⟩ => ⟨S8, .f32⟩
  | .hbm, ⟨102, _⟩ => ⟨S8, .f32⟩
  | .hbm, ⟨103, _⟩ => ⟨S8, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x3x4096, .f32⟩
  | .local _ .vmem, ⟨3, _⟩ => ⟨S1x3x4096, .f32⟩
  | .local _ .vmem, ⟨4, _⟩ => ⟨S1x512x1, .f32⟩
  | .local _ .vmem, ⟨5, _⟩ => ⟨S1x512x1, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_v12 : Ref sig .tc := ⟨.hbm, 30, rfl⟩
abbrev main_call0_call0_cst_3 : Ref sig .tc := ⟨.hbm, 31, rfl⟩
abbrev main_call0_call0_v13 : Ref sig .tc := ⟨.hbm, 32, rfl⟩
abbrev main_call0_call0_cst_4 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_v0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_call1_v0 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_cst_5 : Ref sig .tc := ⟨.hbm, 55, rfl⟩
abbrev main_v21 : Ref sig .tc := ⟨.hbm, 56, rfl⟩
abbrev main_v22 : Ref sig .tc := ⟨.hbm, 57, rfl⟩
abbrev main_cst_6 : Ref sig .tc := ⟨.hbm, 58, rfl⟩
abbrev main_v23 : Ref sig .tc := ⟨.hbm, 59, rfl⟩
abbrev main_v24 : Ref sig .tc := ⟨.hbm, 60, rfl⟩
abbrev main_c_7 : Ref sig .tc := ⟨.hbm, 61, rfl⟩
abbrev main_call2_call0_cst : Ref sig .tc := ⟨.hbm, 62, rfl⟩
abbrev main_call2_call0_v0 : Ref sig .tc := ⟨.hbm, 63, rfl⟩
abbrev main_call2_call0_v1 : Ref sig .tc := ⟨.hbm, 64, rfl⟩
abbrev main_call2_call0_cst_0 : Ref sig .tc := ⟨.hbm, 65, rfl⟩
abbrev main_call2_call0_v2 : Ref sig .tc := ⟨.hbm, 66, rfl⟩
abbrev main_call2_call0_v3 : Ref sig .tc := ⟨.hbm, 67, rfl⟩
abbrev main_call2_call0_v4 : Ref sig .tc := ⟨.hbm, 68, rfl⟩
abbrev main_call2_call0_v5 : Ref sig .tc := ⟨.hbm, 69, rfl⟩
abbrev main_call2_call0_v6 : Ref sig .tc := ⟨.hbm, 70, rfl⟩
abbrev main_call2_call0_v7 : Ref sig .tc := ⟨.hbm, 71, rfl⟩
abbrev main_call2_call0_cst_1 : Ref sig .tc := ⟨.hbm, 72, rfl⟩
abbrev main_call2_call0_v8 : Ref sig .tc := ⟨.hbm, 73, rfl⟩
abbrev main_call2_call0_cst_2 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_call0_v12 : Ref sig .tc := ⟨.hbm, 78, rfl⟩
abbrev main_call2_call0_cst_3 : Ref sig .tc := ⟨.hbm, 79, rfl⟩
abbrev main_call2_call0_v13 : Ref sig .tc := ⟨.hbm, 80, rfl⟩
abbrev main_call2_call0_cst_4 : Ref sig .tc := ⟨.hbm, 81, rfl⟩
abbrev main_call2_call0_call0_v0 : Ref sig .tc := ⟨.hbm, 82, rfl⟩
abbrev main_call2_call0_call0_v1 : Ref sig .tc := ⟨.hbm, 83, rfl⟩
abbrev main_call2_v0 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_8 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_c_9 : Ref sig .tc := ⟨.hbm, 94, rfl⟩
abbrev main_v33 : Ref sig .tc := ⟨.hbm, 95, rfl⟩
abbrev main_v34 : Ref sig .tc := ⟨.hbm, 96, rfl⟩
abbrev main_cst_10 : Ref sig .tc := ⟨.hbm, 97, rfl⟩
abbrev main_call3_v0 : Ref sig .tc := ⟨.hbm, 98, rfl⟩
abbrev main_v35 : Ref sig .tc := ⟨.hbm, 99, rfl⟩
abbrev main_cst_11 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_cst_12 : Ref sig .tc := ⟨.hbm, 104, rfl⟩
abbrev main_v39 : Ref sig .tc := ⟨.hbm, 105, rfl⟩
abbrev main_cst_13 : Ref sig .tc := ⟨.hbm, 106, rfl⟩
abbrev main_v40 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x4096x3_S8x3x4096_0_2_1 : S8x4096x3.Transposes [0, 2, 1] S8x3x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S512x3_S512 : S512x3.Reduces [1] S512
  shapeCasts_S512_S512x1 : S512.ShapeCasts S512x1
  reduces_S3x4096_S4096 : S3x4096.Reduces [0] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reduces_S512x4096_S4096 : S512x4096.Reduces [0] S4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x4096x1_S8x4096 : S8x4096x1.ShapeCasts S8x4096
  shapeCasts_S8x1x4096_S8x4096 : S8x1x4096.ShapeCasts S8x4096
  reducesTo_S8x4096_S8_d1 : S8x4096.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  natLt_1_32 : 1 < 32
  bcast_S_S8x4096 : S_.BroadcastsInDim S8x4096 (![] : Fin 0 → Fin S8x4096.rank)
  reducesTo_S8_S_d0 : S8.ReducesTo [0] S_
  dot_S512x3_S3x4096_S512x4096_1_0_0_1_n_n_wf : DotDims.WF S512x3 S3x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S3x4096_S512x4096_1_0_0_1_n_n : DotDims S512x3 S3x4096 S512x4096 where
  lhsContracting := [1]
  rhsContracting := [0]
  lhsNonContracting := [0]
  rhsNonContracting := [1]
  lhsBatch := []
  rhsBatch := []
  wf := dot_S512x3_S3x4096_S512x4096_1_0_0_1_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩
abbrev S8x1 : Shape := ⟨2, ![8, 1]⟩

abbrev nBuf : Space → Nat
  | .hbm => 123
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S8x1, .f32⟩
  | .hbm, ⟨25, _⟩ => ⟨S_, .f32⟩
  | .hbm, ⟨26, _⟩ => ⟨S8x1, .f32⟩
  | .hbm, ⟨27, _⟩ => ⟨S8x1, .f32⟩
  | .hbm, ⟨28, _⟩ => ⟨S_, .i32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S_, .f32⟩
  | .hbm, ⟨33, _⟩ => ⟨S8x1, .f32⟩
  | .hbm, ⟨34, _⟩ => ⟨S8x1, .f32⟩
  | .hbm, ⟨35, _⟩ => ⟨S8x4096, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S8x1, .f32⟩
  | .hbm, ⟨51, _⟩ => ⟨S8x1, .f32⟩
  | .hbm, ⟨52, _⟩ => ⟨S8x1, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S8x1, .f32⟩
  | .hbm, ⟨57, _⟩ => ⟨S8x1, .f32⟩
  | .hbm, ⟨58, _⟩ => ⟨S8x4096, .f32⟩
  | .hbm, ⟨59, _⟩ => ⟨S8x4096, .i1⟩
  | .hbm, ⟨60, _⟩ => ⟨S8x4096, .i32⟩
  | .hbm, ⟨61, _⟩ => ⟨S_, .i32⟩
  | .hbm, ⟨62, _⟩ => ⟨S8, .i32⟩
  | .hbm, ⟨63, _⟩ => ⟨S8, .f32⟩
  | .hbm, ⟨64, _⟩ => ⟨S_, .f32⟩
  | .hbm, ⟨65, _⟩ => ⟨S8x4096, .f32⟩
  | .hbm, ⟨66, _⟩ => ⟨S8x4096, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8x1, .f32⟩
  | .hbm, ⟨73, _⟩ => ⟨S_, .f32⟩
  | .hbm, ⟨74, _⟩ => ⟨S8x1, .f32⟩
  | .hbm, ⟨75, _⟩ => ⟨S8x1, .f32⟩
  | .hbm, ⟨76, _⟩ => ⟨S_, .i32⟩
  | .hbm, ⟨77, _⟩ => ⟨S_, .f32⟩
  | .hbm, ⟨78, _⟩ => ⟨S8, .f32⟩
  | .hbm, ⟨79, _⟩ => ⟨S8x1, .f32⟩
  | .hbm, ⟨80, _⟩ => ⟨S_, .f32⟩
  | .hbm, ⟨81, _⟩ => ⟨S8x1, .f32⟩
  | .hbm, ⟨82, _⟩ => ⟨S8x1, .f32⟩
  | .hbm, ⟨83, _⟩ => ⟨S8x4096, .f32⟩
  | .hbm, ⟨84, _⟩ => ⟨S8x4096, .f32⟩
  | .hbm, ⟨85, _⟩ => ⟨S8x4096, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S8, .f32⟩
  | .hbm, ⟨91, _⟩ => ⟨S8x1, .f32⟩
  | .hbm, ⟨92, _⟩ => ⟨S8x1, .f32⟩
  | .hbm, ⟨93, _⟩ => ⟨S8x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S8x1, .f32⟩
  | .hbm, ⟨99, _⟩ => ⟨S8x1, .f32⟩
  | .hbm, ⟨100, _⟩ => ⟨S8x1, .f32⟩
  | .hbm, ⟨101, _⟩ => ⟨S8x4096, .f32⟩
  | .hbm, ⟨102, _⟩ => ⟨S8x4096, .f32⟩
  | .hbm, ⟨103, _⟩ => ⟨S_, .f32⟩
  | .hbm, ⟨104, _⟩ => ⟨S8x1, .f32⟩
  | .hbm, ⟨105, _⟩ => ⟨S8x1, .f32⟩
  | .hbm, ⟨106, _⟩ => ⟨S8x4096, .f32⟩
  | .hbm, ⟨107, _⟩ => ⟨S8x4096, .i1⟩
  | .hbm, ⟨108, _⟩ => ⟨S8x4096, .i32⟩
  | .hbm, ⟨109, _⟩ => ⟨S_, .i32⟩
  | .hbm, ⟨110, _⟩ => ⟨S8, .i32⟩
  | .hbm, ⟨111, _⟩ => ⟨S8, .f32⟩
  | .hbm, ⟨112, _⟩ => ⟨S_, .f32⟩
  | .hbm, ⟨113, _⟩ => ⟨S8x4096, .f32⟩
  | .hbm, ⟨114, _⟩ => ⟨S8x4096, .f32⟩
  | .hbm, ⟨115, _⟩ => ⟨S_, .f32⟩
  | .hbm, ⟨116, _⟩ => ⟨S8, .f32⟩
  | .hbm, ⟨117, _⟩ => ⟨S8, .f32⟩
  | .hbm, ⟨118, _⟩ => ⟨S8, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_cst_0 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_cst_1 : Ref sig .tc := ⟨.hbm, 39, rfl⟩
abbrev main_call0_call0_v8 : Ref sig .tc := ⟨.hbm, 40, rfl⟩
abbrev main_call0_call0_cst_2 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_call0_v12 : Ref sig .tc := ⟨.hbm, 45, rfl⟩
abbrev main_call0_call0_cst_3 : Ref sig .tc := ⟨.hbm, 46, rfl⟩
abbrev main_call0_call0_v13 : Ref sig .tc := ⟨.hbm, 47, rfl⟩
abbrev main_call0_call0_cst_4 : Ref sig .tc := ⟨.hbm, 48, rfl⟩
abbrev main_call0_call0_call0_v0 : Ref sig .tc := ⟨.hbm, 49, rfl⟩
abbrev main_call0_call0_call0_v1 : Ref sig .tc := ⟨.hbm, 50, rfl⟩
abbrev main_call0_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_6 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_7 : Ref sig .tc := ⟨.hbm, 61, rfl⟩
abbrev main_v27 : Ref sig .tc := ⟨.hbm, 62, rfl⟩
abbrev main_v28 : Ref sig .tc := ⟨.hbm, 63, rfl⟩
abbrev main_cst_8 : Ref sig .tc := ⟨.hbm, 64, rfl⟩
abbrev main_call1_v0 : Ref sig .tc := ⟨.hbm, 65, rfl⟩
abbrev main_v29 : Ref sig .tc := ⟨.hbm, 66, rfl⟩
abbrev main_cst_9 : Ref sig .tc := ⟨.hbm, 67, rfl⟩
abbrev main_v30 : Ref sig .tc := ⟨.hbm, 68, rfl⟩
abbrev main_v31 : Ref sig .tc := ⟨.hbm, 69, rfl⟩
abbrev main_cst_10 : Ref sig .tc := ⟨.hbm, 70, rfl⟩
abbrev main_v32 : Ref sig .tc := ⟨.hbm, 71, rfl⟩
abbrev main_v33 : Ref sig .tc := ⟨.hbm, 72, rfl⟩
abbrev main_cst_11 : Ref sig .tc := ⟨.hbm, 73, rfl⟩
abbrev main_v34 : Ref sig .tc := ⟨.hbm, 74, rfl⟩
abbrev main_v35 : Ref sig .tc := ⟨.hbm, 75, rfl⟩
abbrev main_c_12 : Ref sig .tc := ⟨.hbm, 76, rfl⟩
abbrev main_call2_call0_cst : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_call0_cst_0 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_cst_1 : Ref sig .tc := ⟨.hbm, 87, rfl⟩
abbrev main_call2_call0_v8 : Ref sig .tc := ⟨.hbm, 88, rfl⟩
abbrev main_call2_call0_cst_2 : Ref sig .tc := ⟨.hbm, 89, rfl⟩
abbrev main_call2_call0_v9 : Ref sig .tc := ⟨.hbm, 90, rfl⟩
abbrev main_call2_call0_v10 : Ref sig .tc := ⟨.hbm, 91, rfl⟩
abbrev main_call2_call0_v11 : Ref sig .tc := ⟨.hbm, 92, rfl⟩
abbrev main_call2_call0_v12 : Ref sig .tc := ⟨.hbm, 93, rfl⟩
abbrev main_call2_call0_cst_3 : Ref sig .tc := ⟨.hbm, 94, rfl⟩
abbrev main_call2_call0_v13 : Ref sig .tc := ⟨.hbm, 95, rfl⟩
abbrev main_call2_call0_cst_4 : Ref sig .tc := ⟨.hbm, 96, rfl⟩
abbrev main_call2_call0_call0_v0 : Ref sig .tc := ⟨.hbm, 97, rfl⟩
abbrev main_call2_call0_call0_v1 : Ref sig .tc := ⟨.hbm, 98, rfl⟩
abbrev main_call2_v0 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_cst_13 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_c_14 : Ref sig .tc := ⟨.hbm, 109, rfl⟩
abbrev main_v44 : Ref sig .tc := ⟨.hbm, 110, rfl⟩
abbrev main_v45 : Ref sig .tc := ⟨.hbm, 111, rfl⟩
abbrev main_cst_15 : Ref sig .tc := ⟨.hbm, 112, rfl⟩
abbrev main_call3_v0 : Ref sig .tc := ⟨.hbm, 113, rfl⟩
abbrev main_v46 : Ref sig .tc := ⟨.hbm, 114, rfl⟩
abbrev main_cst_16 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_17 : Ref sig .tc := ⟨.hbm, 119, rfl⟩
abbrev main_v50 : Ref sig .tc := ⟨.hbm, 120, rfl⟩
abbrev main_cst_18 : Ref sig .tc := ⟨.hbm, 121, rfl⟩
abbrev main_v51 : Ref sig .tc := ⟨.hbm, 122, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  natLt_1_32 : 1 < 32
  bcast_S_S8x4096 : S_.BroadcastsInDim S8x4096 (![] : Fin 0 → Fin S8x4096.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KbSetup.lean ====
/-
  The frame of this program's one kernel region, first part: what the region is entered with and what runs around it.
  @main is one host line (the transpose of `y`), the kernel region on an 8 × 8 grid, and 103 host lines after it.
  Here: the buffer contents at the region's entry (`V`), that @main reduces to the region continued by the later
  lines, that those lines touch only unscoped buffers, allocate nothing and write none of the four arrays the
  pipeline stages, that neither argument is ever written, each input window's block at a point, the three
  conditions of the body decided over the grid (the row-tile index is the point's number mod 8: the first branch at
  tile 0, the second at tiles 1 … 7, the third at tile 7), and where the second output is idle (every tile but 7).
-/
import proofs.«140159_j10625749090595_1_alg».proof.Proof.Gen.Kernel.Launch
import proofs.«140159_j10625749090595_1_alg».proof.Proof.Gen.Kernel.Skeleton
import proofs.«140159_j10625749090595_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6, hostOps1_7, hostOps1_8]

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the line before the region, the region, the lines after it: it reduces to the region continued by the
    later lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the pipeline: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And so none of the later lines writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-- The line before the region writes the transposed copy only: `x` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
/-- Likewise `y`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))

/-- No line of this stretch writes `y`. -/
theorem hostOps1_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_1_arg1 : ∀ op ∈ (hostOps1_1 : List (HloOp τ sig (Elt F))), Proc.devRef .tc main_arg1 ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_2_arg1 : ∀ op ∈ (hostOps1_2 : List (HloOp τ sig (Elt F))), Proc.devRef .tc main_arg1 ∉ op.writes := by
  intro op hop
  simp only [hostOps1_2, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_3_arg1 : ∀ op ∈ (hostOps1_3 : List (HloOp τ sig (Elt F))), Proc.devRef .tc main_arg1 ∉ op.writes := by
  intro op hop
  simp only [hostOps1_3, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_4_arg1 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_5_arg1 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_6_arg1 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_7_arg1 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_8_arg1 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- `y` bypasses the region (the pipeline stages its transposed copy) and no later line writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      simp only [tailOps, List.mem_cons, List.mem_nil_iff, or_false] at hops
      rcases hops with rfl | rfl | rfl | rfl | rfl | rfl | rfl | rfl | rfl
      · exact hostOps1_arg1 op hop'
      · exact hostOps1_1_arg1 op hop'
      · exact hostOps1_2_arg1 op hop'
      · exact hostOps1_3_arg1 op hop'
      · exact hostOps1_4_arg1 op hop'
      · exact hostOps1_5_arg1 op hop'
      · exact hostOps1_6_arg1 op hop'
      · exact hostOps1_7_arg1 op hop'
      · exact hostOps1_8_arg1 op hop'),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of `x` is in its staging buffer at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The batch's transposed `y` is in its staging buffer at every point: fetched at the batch's first tile, and at
    the other tiles the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `tile == 0`, as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- `tile > 0`. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
/-- `tile == 7`, the last. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the body stores nothing into the second output, and the pipeline does not write it back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- At the last tile it does. -/
theorem liveAt0_3 : ∀ t : Fin cfg0.N, cond0_2 (grid0.coords t) → cfg0.idle 3 (grid0.coords t) = false := by decide +kernel

/-! ## The staging memrefs and the scratch -/

abbrev VO0_2 : View sig .tc .vmem S1x512x1 .f32 := (Memref.whole cc0_stg2_0 : Memref sig .tc .vmem S1x512x1 .f32).view
abbrev VO0_3 : View sig .tc .vmem S1x1x4096 .f32 := (Memref.whole cc0_stg3_0 : Memref sig .tc .vmem S1x1x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The running-minimum scratch, a whole scoped buffer of the kernel's own. -/
abbrev scM0_0 : Memref sig .tc .vmem S1x4096 .f32 := Memref.whole cc0_scratch0
abbrev VS0_0 : View sig .tc .vmem S1x4096 .f32 := scM0_0.view

/-- What the region hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KbRunA.lean ====
/-
  The kernel body run whole at the batch's first row-tile: the first branch alone is taken. The body stores the tile's row minima into the first
  output's buffer and the tile's column minima into the scratch (whatever it held); the second output's buffer is left as found.
  The lists of pieces each buffer ends with are found by running the body; the statement holds on any whole staging
  memrefs, at any float values.
-/
import proofs.«140159_j10625749090595_1_alg».proof.Proof.KbSetup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) :
    Σ' (L2 : List (View.Piece (Elt F) S1x512x1 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Hand

end
-- ==== Proof.KbRunB.lean ====
/-
  The kernel body run whole at a middle row-tile (1 … 6): the second branch alone is taken. The body stores the tile's row minima into the first
  output's buffer and the smaller of the scratch and the tile's column minima back into the scratch; the second output's buffer is left as found.
  The lists of pieces each buffer ends with are found by running the body; the statement holds on any whole staging
  memrefs, at any float values.
-/
import proofs.«140159_j10625749090595_1_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) :
    Σ' (L2 : List (View.Piece (Elt F) S1x512x1 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Hand

end
-- ==== Proof.KbRunC.lean ====
/-
  The kernel body run whole at the batch's last row-tile (7): the second and the third branch are taken. The body stores the tile's row minima into the
  first output's buffer, the smaller of the scratch and the tile's column minima back into the scratch, and then the scratch into the second output's buffer.
  The lists of pieces each buffer ends with are found by running the body; the statement holds on any whole staging
  memrefs, at any float values.
-/
import proofs.«140159_j10625749090595_1_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) :
    Σ' (L2 : List (View.Piece (Elt F) S1x512x1 .f32)) (L3 : List (View.Piece (Elt F) S1x1x4096 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.KbFrame.lean ====
/-
  The frame of this program's one kernel region, last part. Per case of the body's three branches: the pieces its
  stores leave cover each stored buffer, so the buffer's contents after the body are those pieces read back. Point by
  point over the 64 grid points (batch-major, eight row-tiles a batch): at a batch's first tile the scratch is
  overwritten, at its later tiles it is combined with what the tile before left, at its last tile the second output's
  buffer receives it. With that as the pipeline's proof data — the first output written back at every point, the
  second at each batch's last tile, the scratch carried in the region invariant — the body meets its obligation at
  every point, the region runs, the host lines after it run, and both arguments end as launched.
-/
import proofs.«140159_j10625749090595_1_alg».proof.Proof.KbRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

theorem cover0_A_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) (y : S1x512x1.Idx) :
    ∃ pc ∈ (kernelRun0_A c i arg2 harg2 arg3 harg3 arg4 harg4 arg5 harg5 arg6 harg6 hc0 hc1 hc2 x0 x1).1, y ∈ pc.1.set :=
  View.cover_of_tiledL (kernelRun0_A c i arg2 harg2 arg3 harg3 arg4 harg4 arg5 harg5 arg6 harg6 hc0 hc1 hc2 x0 x1).1 S1x512x1.size (by sl_kernel_rfl) y
def out0_A_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) : Vec F S1x512x1 .f32 :=
  VO0_2.read (Elt F) (VO0_2.writes (Elt F) VO0_2.junk (kernelRun0_A c i arg2 harg2 arg3 harg3 arg4 harg4 arg5 harg5 arg6 harg6 hc0 hc1 hc2 x0 x1).1)
theorem scover0_A_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) (y : S1x4096.Idx) :
    ∃ pc ∈ (kernelRun0_A c i arg2 harg2 arg3 harg3 arg4 harg4 arg5 harg5 arg6 harg6 hc0 hc1 hc2 x0 x1).2.1, y ∈ pc.1.set :=
  View.cover_of_tiledL (kernelRun0_A c i arg2 harg2 arg3 harg3 arg4 harg4 arg5 harg5 arg6 harg6 hc0 hc1 hc2 x0 x1).2.1 S1x4096.size (by sl_kernel_rfl) y
def sout0_A_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) : Vec F S1x4096 .f32 :=
  VS0_0.read (Elt F) (VS0_0.writes (Elt F) VS0_0.junk (kernelRun0_A c i arg2 harg2 arg3 harg3 arg4 harg4 arg5 harg5 arg6 harg6 hc0 hc1 hc2 x0 x1).2.1)

theorem cover0_B_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) (y : S1x512x1.Idx) :
    ∃ pc ∈ (kernelRun0_B c i arg2 harg2 arg3 harg3 arg4 harg4 arg5 harg5 arg6 harg6 hc0 hc1 hc2 x0 x1 xs0).1, y ∈ pc.1.set :=
  View.cover_of_tiledL (kernelRun0_B c i arg2 harg2 arg3 harg3 arg4 harg4 arg5 harg5 arg6 harg6 hc0 hc1 hc2 x0 x1 xs0).1 S1x512x1.size (by sl_kernel_rfl) y
def out0_B_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) : Vec F S1x512x1 .f32 :=
  VO0_2.read (Elt F) (VO0_2.writes (Elt F) VO0_2.junk (kernelRun0_B c i arg2 harg2 arg3 harg3 arg4 harg4 arg5 harg5 arg6 harg6 hc0 hc1 hc2 x0 x1 xs0).1)
theorem scover0_B_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) (y : S1x4096.Idx) :
    ∃ pc ∈ (kernelRun0_B c i arg2 harg2 arg3 harg3 arg4 harg4 arg5 harg5 arg6 harg6 hc0 hc1 hc2 x0 x1 xs0).2.1, y ∈ pc.1.set :=
  View.cover_of_tiledL (kernelRun0_B c i arg2 harg2 arg3 harg3 arg4 harg4 arg5 harg5 arg6 harg6 hc0 hc1 hc2 x0 x1 xs0).2.1 S1x4096.size (by sl_kernel_rfl) y
def sout0_B_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 hc2 x0 x1 xs0).2.1)

theorem cover0_C_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x512x1.Idx) :
    ∃ pc ∈ (kernelRun0_C c i arg2 harg2 arg3 harg3 arg4 harg4 arg5 harg5 arg6 harg6 hc0 hc1 hc2 x0 x1 xs0).1, y ∈ pc.1.set :=
  View.cover_of_tiledL (kernelRun0_C c i arg2 harg2 arg3 harg3 arg4 harg4 arg5 harg5 arg6 harg6 hc0 hc1 hc2 x0 x1 xs0).1 S1x512x1.size (by sl_kernel_rfl) y
def out0_C_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x512x1 .f32 :=
  VO0_2.read (Elt F) (VO0_2.writes (Elt F) VO0_2.junk (kernelRun0_C c i arg2 harg2 arg3 harg3 arg4 harg4 arg5 harg5 arg6 harg6 hc0 hc1 hc2 x0 x1 xs0).1)
theorem cover0_C_3 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x1x4096.Idx) :
    ∃ pc ∈ (kernelRun0_C c i arg2 harg2 arg3 harg3 arg4 harg4 arg5 harg5 arg6 harg6 hc0 hc1 hc2 x0 x1 xs0).2.1, y ∈ pc.1.set :=
  View.cover_of_tiledL (kernelRun0_C c i arg2 harg2 arg3 harg3 arg4 harg4 arg5 harg5 arg6 harg6 hc0 hc1 hc2 x0 x1 xs0).2.1 S1x1x4096.size (by sl_kernel_rfl) y
def out0_C_3 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x1x4096 .f32 :=
  VO0_3.read (Elt F) (VO0_3.writes (Elt F) VO0_3.junk (kernelRun0_C c i arg2 harg2 arg3 harg3 arg4 harg4 arg5 harg5 arg6 harg6 hc0 hc1 hc2 x0 x1 xs0).2.1)
theorem scover0_C_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x4096.Idx) :
    ∃ pc ∈ (kernelRun0_C c i arg2 harg2 arg3 harg3 arg4 harg4 arg5 harg5 arg6 harg6 hc0 hc1 hc2 x0 x1 xs0).2.2.1, y ∈ pc.1.set :=
  View.cover_of_tiledL (kernelRun0_C c i arg2 harg2 arg3 harg3 arg4 harg4 arg5 harg5 arg6 harg6 hc0 hc1 hc2 x0 x1 xs0).2.2.1 S1x4096.size (by sl_kernel_rfl) y
def sout0_C_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 hc2 x0 x1 xs0).2.2.1)

/-! ## The conditions at a point, from the point's number mod 8 -/

theorem cA0 (t : Fin cfg0.N) (h0 : t.val % 8 = 0) : cond0_0 (grid0.coords t) := (hcond0_0 t).mpr h0
theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by
  have h7 := (hcond0_2 t).mp h; omega
theorem cB0 (t : Fin cfg0.N) (h0 : ¬ t.val % 8 = 0) : ¬cond0_0 (grid0.coords t) := fun h => h0 ((hcond0_0 t).mp h)
theorem cB1 (t : Fin cfg0.N) (h0 : ¬ t.val % 8 = 0) : cond0_1 (grid0.coords t) := (hcond0_1 t).mpr h0
theorem cB2 (t : Fin cfg0.N) (h7 : ¬ t.val % 8 = 7) : ¬cond0_2 (grid0.coords t) := fun h => h7 ((hcond0_2 t).mp h)
theorem cC2 (t : Fin cfg0.N) (h7 : t.val % 8 = 7) : cond0_2 (grid0.coords t) := (hcond0_2 t).mpr h7

/-! ## The three buffers after the body at a point: first output, second output, scratch -/

/-- At a batch's first tile. The second output's buffer is not stored into: a placeholder nothing consults. -/
def atA (c : Dev nD) (t : Fin cfg0.N) (h0 : t.val % 8 = 0) : Vec F S1x512x1 .f32 × Vec F S1x1x4096 .f32 × Vec F S1x4096 .f32 :=
  (out0_A_2 c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) (iblk m c 0 t) (iblk m c 1 t),
   VO0_3.read (Elt F) (VO0_3.writes (Elt F) VO0_3.junk []),
   sout0_A_0 c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) (iblk m c 0 t) (iblk m c 1 t))
/-- At a middle tile, over the scratch `xs` the tile before left. -/
def atB (c : Dev nD) (t : Fin cfg0.N) (h0 : ¬ t.val % 8 = 0) (h7 : ¬ t.val % 8 = 7) (xs : Vec F S1x4096 .f32) :
    Vec F S1x512x1 .f32 × Vec F S1x1x4096 .f32 × Vec F S1x4096 .f32 :=
  (out0_B_2 c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h7) (iblk m c 0 t) (iblk m c 1 t) xs,
   VO0_3.read (Elt F) (VO0_3.writes (Elt F) VO0_3.junk []),
   sout0_B_0 c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h7) (iblk m c 0 t) (iblk m c 1 t) xs)
/-- At a batch's last tile, over the scratch `xs` the tile before left. -/
def atC (c : Dev nD) (t : Fin cfg0.N) (h0 : ¬ t.val % 8 = 0) (h7 : t.val % 8 = 7) (xs : Vec F S1x4096 .f32) :
    Vec F S1x512x1 .f32 × Vec F S1x1x4096 .f32 × Vec F S1x4096 .f32 :=
  (out0_C_2 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs,
   out0_C_3 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs,
   sout0_C_0 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs)

/-- What the three buffers hold after the body at position `n`, by recursion on the position: the case the position
    selects, a later tile's over the scratch the position before left. -/
def outsAt0 (c : Dev nD) : (n : ℕ) → n < cfg0.N → Vec F S1x512x1 .f32 × Vec F S1x1x4096 .f32 × Vec F S1x4096 .f32
  | 0, hn => atA m c ⟨0, hn⟩ (Nat.zero_mod _)
  | n + 1, hn =>
    if h0 : (n + 1) % 8 = 0 then atA m c ⟨n + 1, hn⟩ h0
    else if h7 : (n + 1) % 8 = 7 then atC m c ⟨n + 1, hn⟩ h0 h7 (outsAt0 c n (Nat.lt_of_succ_lt hn)).2.2
    else atB m c ⟨n + 1, hn⟩ h0 h7 (outsAt0 c n (Nat.lt_of_succ_lt hn)).2.2

theorem outsAt0_A (c : Dev nD) (t : Fin cfg0.N) (h0 : t.val % 8 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬ t.val % 8 = 0) (h7 : ¬ t.val % 8 = 7) :
    outsAt0 m c t.val t.isLt = atB m c t h0 h7 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬ t.val % 8 = 0) (h7 : t.val % 8 = 7) :
    outsAt0 m c t.val t.isLt = atC m c t h0 h7 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h7).trans rfl)

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block, the outputs' at
    `outsAt0`'s components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number mod 8 says which case it is in; the
    invariant hands the body the scratch (at anything at the very first point, else at what the point before left) and
    takes it back at this point's contents; the second output's buffer is handed back untouched except at a last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · rw [Dat.leavesExact_idle (dats m 0 c) 3 t (idleAt0_3 t (cA2 t h0)) (noFlush0_3 t (cA2 t h0))]
    rw [outsAt0_A m c t h0]
    unfold atA out0_A_2 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (cA0 t h0) (cA1 t h0) (cA2 t h0) (iblk m c 0 t) (iblk m c 1 t)).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (cA0 t h0) (cA1 t h0) (cA2 t h0) (iblk m c 0 t) (iblk m c 1 t)).2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
  · have hz : t.val ≠ 0 := fun e => h0 (by rw [e])
    by_cases h7 : t.val % 8 = 7
    · rw [show (dats m 0 c).leavesExact 3 t = owns (c : Thread nD τ) (ms0_3 t) fullShare ((dats m 0 c).after 3 t) from by
        unfold Dat.leavesExact; rw [liveAt0_3 t (cC2 t h7)], after0_3]
      rw [outsAt0_C m c t h0 h7]
      unfold atC out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (cB0 t h0) (cB1 t h0) (cC2 t h7) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (cB2 t h7)) (noFlush0_3 t (cB2 t h7))]
      rw [outsAt0_B m c t h0 h7]
      unfold atB out0_B_2 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (cB0 t h0) (cB1 t h0) (cB2 t h7) (iblk m c 0 t) (iblk m c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, every array of the pipeline ending at what the proof data compute and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to its end and both arguments end as launched — `x` as the input array the pipeline
    stages and never writes, `y` as a buffer that bypasses the region and that no host line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.Kernel.Hand

end
-- ==== Proof.KiSetup.lean ====
/-
  The frame of this program's one kernel region, first part: what the region is entered with and what runs around it.
  @main is one host line (the transpose of `y`), the kernel region on an 8 × 8 grid, and 103 host lines after it.
  Here: the buffer contents at the region's entry (`V`), that @main reduces to the region continued by the later
  lines, that those lines touch only unscoped buffers, allocate nothing and write none of the four arrays the
  pipeline stages, that neither argument is ever written, each input window's block at a point, the three
  conditions of the body decided over the grid (the row-tile index is the point's number mod 8: the first branch at
  tile 0, the second at tiles 1 … 7, the third at tile 7), and where the second output is idle (every tile but 7).
-/
import proofs.«140159_j10625749090595_1_alg».proof.Proof.Gen.KernelIdeal.Launch
import proofs.«140159_j10625749090595_1_alg».proof.Proof.Gen.KernelIdeal.Skeleton
import proofs.«140159_j10625749090595_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2, hostOps1_3, hostOps1_4, hostOps1_5, hostOps1_6, hostOps1_7, hostOps1_8]

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the line before the region, the region, the lines after it: it reduces to the region continued by the
    later lines, at the contents after the earlier one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the pipeline: each writes its own result buffer only. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And so none of the later lines writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop

/-- The line before the region writes the transposed copy only: `x` is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))
/-- Likewise `y`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (by decide)))

/-- No line of this stretch writes `y`. -/
theorem hostOps1_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_1_arg1 : ∀ op ∈ (hostOps1_1 : List (HloOp τ sig (Elt F))), Proc.devRef .tc main_arg1 ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_2_arg1 : ∀ op ∈ (hostOps1_2 : List (HloOp τ sig (Elt F))), Proc.devRef .tc main_arg1 ∉ op.writes := by
  intro op hop
  simp only [hostOps1_2, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_3_arg1 : ∀ op ∈ (hostOps1_3 : List (HloOp τ sig (Elt F))), Proc.devRef .tc main_arg1 ∉ op.writes := by
  intro op hop
  simp only [hostOps1_3, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_4_arg1 : ∀ op ∈ (hostOps1_4 : List (HloOp τ sig (Elt F))), Proc.devRef .tc main_arg1 ∉ op.writes := by
  intro op hop
  simp only [hostOps1_4, List.mem_cons, List.mem_nil_iff, or_false] at hop
  rcases hop with rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_5_arg1 : ∀ op ∈ (hostOps1_5 : List (HloOp τ sig (Elt F))), Proc.devRef .tc main_arg1 ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_6_arg1 : ∀ op ∈ (hostOps1_6 : List (HloOp τ sig (Elt F))), Proc.devRef .tc main_arg1 ∉ op.writes := by
  intro op hop
  simp only [hostOps1_6, List.mem_cons, List.mem_nil_iff, or_false] at hop
  rcases hop with rfl | rfl | rfl | rfl | rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_7_arg1 : ∀ op ∈ (hostOps1_7 : List (HloOp τ sig (Elt F))), Proc.devRef .tc main_arg1 ∉ op.writes := by
  intro op hop
  simp only [hostOps1_7, List.mem_cons, List.mem_nil_iff, or_false] at hop
  rcases hop with rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes `y`. -/
theorem hostOps1_8_arg1 : ∀ op ∈ (hostOps1_8 : List (HloOp τ sig (Elt F))), Proc.devRef .tc main_arg1 ∉ op.writes := by
  intro op hop
  simp only [hostOps1_8, List.mem_cons, List.mem_nil_iff, or_false] at hop
  rcases hop with rfl | rfl | rfl | rfl | rfl | rfl | rfl | rfl
  all_goals simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- `y` bypasses the region (the pipeline stages its transposed copy) and no later line writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (fun op hop => by
      obtain ⟨ops, hops, hop'⟩ := List.mem_flatten.mp hop
      simp only [tailOps, List.mem_cons, List.mem_nil_iff, or_false] at hops
      rcases hops with rfl | rfl | rfl | rfl | rfl | rfl | rfl | rfl | rfl
      · exact hostOps1_arg1 op hop'
      · exact hostOps1_1_arg1 op hop'
      · exact hostOps1_2_arg1 op hop'
      · exact hostOps1_3_arg1 op hop'
      · exact hostOps1_4_arg1 op hop'
      · exact hostOps1_5_arg1 op hop'
      · exact hostOps1_6_arg1 op hop'
      · exact hostOps1_7_arg1 op hop'
      · exact hostOps1_8_arg1 op hop'),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile of `x` is in its staging buffer at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The batch's transposed `y` is in its staging buffer at every point: fetched at the batch's first tile, and at
    the other tiles the block index has not moved and the body left the buffer as it found it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- `tile == 0`, as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- `tile > 0`. -/
abbrev cond0_1 (i : grid0.Coords) : Prop := (Scalar.cmpi .ne (Scalar.extui (Scalar.cmpi .sgt (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)
/-- `tile == 7`, the last. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the body stores nothing into the second output, and the pipeline does not write it back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- At the last tile it does. -/
theorem liveAt0_3 : ∀ t : Fin cfg0.N, cond0_2 (grid0.coords t) → cfg0.idle 3 (grid0.coords t) = false := by decide +kernel

/-! ## The staging memrefs and the scratch -/

abbrev VO0_2 : View sig .tc .vmem S1x512x1 .f32 := (Memref.whole cc0_stg2_0 : Memref sig .tc .vmem S1x512x1 .f32).view
abbrev VO0_3 : View sig .tc .vmem S1x1x4096 .f32 := (Memref.whole cc0_stg3_0 : Memref sig .tc .vmem S1x1x4096 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The running-minimum scratch, a whole scoped buffer of the kernel's own. -/
abbrev scM0_0 : Memref sig .tc .vmem S1x4096 .f32 := Memref.whole cc0_scratch0
abbrev VS0_0 : View sig .tc .vmem S1x4096 .f32 := scM0_0.view

/-- What the region hands the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KiRunA.lean ====
/-
  The kernel body run whole at the batch's first row-tile: the first branch alone is taken. The body stores the tile's row minima into the first
  output's buffer and the tile's column minima into the scratch (whatever it held); the second output's buffer is left as found.
  The lists of pieces each buffer ends with are found by running the body; the statement holds on any whole staging
  memrefs, at any float values.
-/
import proofs.«140159_j10625749090595_1_alg».proof.Proof.KiSetup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_A (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) :
    Σ' (L2 : List (View.Piece (Elt F) S1x512x1 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KiRunB.lean ====
/-
  The kernel body run whole at a middle row-tile (1 … 6): the second branch alone is taken. The body stores the tile's row minima into the first
  output's buffer and the smaller of the scratch and the tile's column minima back into the scratch; the second output's buffer is left as found.
  The lists of pieces each buffer ends with are found by running the body; the statement holds on any whole staging
  memrefs, at any float values.
-/
import proofs.«140159_j10625749090595_1_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_B (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) :
    Σ' (L2 : List (View.Piece (Elt F) S1x512x1 .f32)), { LS0 : List (View.Piece (Elt F) S1x4096 .f32) //
      ∀ (xi3 : Vec F S1x1x4096 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Hand

end
-- ==== Proof.KiRunC.lean ====
/-
  The kernel body run whole at the batch's last row-tile (7): the second and the third branch are taken. The body stores the tile's row minima into the
  first output's buffer, the smaller of the scratch and the tile's column minima back into the scratch, and then the scratch into the second output's buffer.
  The lists of pieces each buffer ends with are found by running the body; the statement holds on any whole staging
  memrefs, at any float values.
-/
import proofs.«140159_j10625749090595_1_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave (last first), with the proof that from the inputs' buffers at `x0`, `x1` the body
    runs to its end holding them unchanged and each stored buffer with those pieces written. -/
noncomputable def kernelRun0_C (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) :
    Σ' (L2 : List (View.Piece (Elt F) S1x512x1 .f32)) (L3 : List (View.Piece (Elt F) S1x1x4096 .f32)), { LS0 : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KiFrame.lean ====
/-
  The frame of this program's one kernel region, last part. Per case of the body's three branches: the pieces its
  stores leave cover each stored buffer, so the buffer's contents after the body are those pieces read back. Point by
  point over the 64 grid points (batch-major, eight row-tiles a batch): at a batch's first tile the scratch is
  overwritten, at its later tiles it is combined with what the tile before left, at its last tile the second output's
  buffer receives it. With that as the pipeline's proof data — the first output written back at every point, the
  second at each batch's last tile, the scratch carried in the region invariant — the body meets its obligation at
  every point, the region runs, the host lines after it run, and both arguments end as launched.
-/
import proofs.«140159_j10625749090595_1_alg».proof.Proof.KiRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the buffers it stores into -/

theorem cover0_A_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) (y : S1x512x1.Idx) :
    ∃ pc ∈ (kernelRun0_A c i arg2 harg2 arg3 harg3 arg4 harg4 arg5 harg5 arg6 harg6 hc0 hc1 hc2 x0 x1).1, y ∈ pc.1.set :=
  View.cover_of_tiledL (kernelRun0_A c i arg2 harg2 arg3 harg3 arg4 harg4 arg5 harg5 arg6 harg6 hc0 hc1 hc2 x0 x1).1 S1x512x1.size (by sl_kernel_rfl) y
def out0_A_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) : Vec F S1x512x1 .f32 :=
  VO0_2.read (Elt F) (VO0_2.writes (Elt F) VO0_2.junk (kernelRun0_A c i arg2 harg2 arg3 harg3 arg4 harg4 arg5 harg5 arg6 harg6 hc0 hc1 hc2 x0 x1).1)
theorem scover0_A_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) (y : S1x4096.Idx) :
    ∃ pc ∈ (kernelRun0_A c i arg2 harg2 arg3 harg3 arg4 harg4 arg5 harg5 arg6 harg6 hc0 hc1 hc2 x0 x1).2.1, y ∈ pc.1.set :=
  View.cover_of_tiledL (kernelRun0_A c i arg2 harg2 arg3 harg3 arg4 harg4 arg5 harg5 arg6 harg6 hc0 hc1 hc2 x0 x1).2.1 S1x4096.size (by sl_kernel_rfl) y
def sout0_A_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) : Vec F S1x4096 .f32 :=
  VS0_0.read (Elt F) (VS0_0.writes (Elt F) VS0_0.junk (kernelRun0_A c i arg2 harg2 arg3 harg3 arg4 harg4 arg5 harg5 arg6 harg6 hc0 hc1 hc2 x0 x1).2.1)

theorem cover0_B_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) (y : S1x512x1.Idx) :
    ∃ pc ∈ (kernelRun0_B c i arg2 harg2 arg3 harg3 arg4 harg4 arg5 harg5 arg6 harg6 hc0 hc1 hc2 x0 x1 xs0).1, y ∈ pc.1.set :=
  View.cover_of_tiledL (kernelRun0_B c i arg2 harg2 arg3 harg3 arg4 harg4 arg5 harg5 arg6 harg6 hc0 hc1 hc2 x0 x1 xs0).1 S1x512x1.size (by sl_kernel_rfl) y
def out0_B_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) : Vec F S1x512x1 .f32 :=
  VO0_2.read (Elt F) (VO0_2.writes (Elt F) VO0_2.junk (kernelRun0_B c i arg2 harg2 arg3 harg3 arg4 harg4 arg5 harg5 arg6 harg6 hc0 hc1 hc2 x0 x1 xs0).1)
theorem scover0_B_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) (y : S1x4096.Idx) :
    ∃ pc ∈ (kernelRun0_B c i arg2 harg2 arg3 harg3 arg4 harg4 arg5 harg5 arg6 harg6 hc0 hc1 hc2 x0 x1 xs0).2.1, y ∈ pc.1.set :=
  View.cover_of_tiledL (kernelRun0_B c i arg2 harg2 arg3 harg3 arg4 harg4 arg5 harg5 arg6 harg6 hc0 hc1 hc2 x0 x1 xs0).2.1 S1x4096.size (by sl_kernel_rfl) y
def sout0_B_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) : Vec F S1x4096 .f32 :=
  VS0_0.read (Elt F) (VS0_0.writes (Elt F) VS0_0.junk (kernelRun0_B c i arg2 harg2 arg3 harg3 arg4 harg4 arg5 harg5 arg6 harg6 hc0 hc1 hc2 x0 x1 xs0).2.1)

theorem cover0_C_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x512x1.Idx) :
    ∃ pc ∈ (kernelRun0_C c i arg2 harg2 arg3 harg3 arg4 harg4 arg5 harg5 arg6 harg6 hc0 hc1 hc2 x0 x1 xs0).1, y ∈ pc.1.set :=
  View.cover_of_tiledL (kernelRun0_C c i arg2 harg2 arg3 harg3 arg4 harg4 arg5 harg5 arg6 harg6 hc0 hc1 hc2 x0 x1 xs0).1 S1x512x1.size (by sl_kernel_rfl) y
def out0_C_2 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x512x1 .f32 :=
  VO0_2.read (Elt F) (VO0_2.writes (Elt F) VO0_2.junk (kernelRun0_C c i arg2 harg2 arg3 harg3 arg4 harg4 arg5 harg5 arg6 harg6 hc0 hc1 hc2 x0 x1 xs0).1)
theorem cover0_C_3 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x1x4096.Idx) :
    ∃ pc ∈ (kernelRun0_C c i arg2 harg2 arg3 harg3 arg4 harg4 arg5 harg5 arg6 harg6 hc0 hc1 hc2 x0 x1 xs0).2.1, y ∈ pc.1.set :=
  View.cover_of_tiledL (kernelRun0_C c i arg2 harg2 arg3 harg3 arg4 harg4 arg5 harg5 arg6 harg6 hc0 hc1 hc2 x0 x1 xs0).2.1 S1x1x4096.size (by sl_kernel_rfl) y
def out0_C_3 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x1x4096 .f32 :=
  VO0_3.read (Elt F) (VO0_3.writes (Elt F) VO0_3.junk (kernelRun0_C c i arg2 harg2 arg3 harg3 arg4 harg4 arg5 harg5 arg6 harg6 hc0 hc1 hc2 x0 x1 xs0).2.1)
theorem scover0_C_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) (y : S1x4096.Idx) :
    ∃ pc ∈ (kernelRun0_C c i arg2 harg2 arg3 harg3 arg4 harg4 arg5 harg5 arg6 harg6 hc0 hc1 hc2 x0 x1 xs0).2.2.1, y ∈ pc.1.set :=
  View.cover_of_tiledL (kernelRun0_C c i arg2 harg2 arg3 harg3 arg4 harg4 arg5 harg5 arg6 harg6 hc0 hc1 hc2 x0 x1 xs0).2.2.1 S1x4096.size (by sl_kernel_rfl) y
def sout0_C_0 (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) : Vec F S1x4096 .f32 :=
  VS0_0.read (Elt F) (VS0_0.writes (Elt F) VS0_0.junk (kernelRun0_C c i arg2 harg2 arg3 harg3 arg4 harg4 arg5 harg5 arg6 harg6 hc0 hc1 hc2 x0 x1 xs0).2.2.1)

/-! ## The conditions at a point, from the point's number mod 8 -/

theorem cA0 (t : Fin cfg0.N) (h0 : t.val % 8 = 0) : cond0_0 (grid0.coords t) := (hcond0_0 t).mpr h0
theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by
  have h7 := (hcond0_2 t).mp h; omega
theorem cB0 (t : Fin cfg0.N) (h0 : ¬ t.val % 8 = 0) : ¬cond0_0 (grid0.coords t) := fun h => h0 ((hcond0_0 t).mp h)
theorem cB1 (t : Fin cfg0.N) (h0 : ¬ t.val % 8 = 0) : cond0_1 (grid0.coords t) := (hcond0_1 t).mpr h0
theorem cB2 (t : Fin cfg0.N) (h7 : ¬ t.val % 8 = 7) : ¬cond0_2 (grid0.coords t) := fun h => h7 ((hcond0_2 t).mp h)
theorem cC2 (t : Fin cfg0.N) (h7 : t.val % 8 = 7) : cond0_2 (grid0.coords t) := (hcond0_2 t).mpr h7

/-! ## The three buffers after the body at a point: first output, second output, scratch -/

/-- At a batch's first tile. The second output's buffer is not stored into: a placeholder nothing consults. -/
def atA (c : Dev nD) (t : Fin cfg0.N) (h0 : t.val % 8 = 0) : Vec F S1x512x1 .f32 × Vec F S1x1x4096 .f32 × Vec F S1x4096 .f32 :=
  (out0_A_2 c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) (iblk m c 0 t) (iblk m c 1 t),
   VO0_3.read (Elt F) (VO0_3.writes (Elt F) VO0_3.junk []),
   sout0_A_0 c (grid0.coords t) (ms0_0 t) (hs0_0 t) (ms0_1 t) (hs0_1 t) (ms0_2 t) (hs0_2 t) (ms0_3 t) (hs0_3 t) scM0_0 (Memref.isWhole_whole _) (cA0 t h0) (cA1 t h0) (cA2 t h0) (iblk m c 0 t) (iblk m c 1 t))
/-- At a middle tile, over the scratch `xs` the tile before left. -/
def atB (c : Dev nD) (t : Fin cfg0.N) (h0 : ¬ t.val % 8 = 0) (h7 : ¬ t.val % 8 = 7) (xs : Vec F S1x4096 .f32) :
    Vec F S1x512x1 .f32 × Vec F S1x1x4096 .f32 × Vec F S1x4096 .f32 :=
  (out0_B_2 c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h7) (iblk m c 0 t) (iblk m c 1 t) xs,
   VO0_3.read (Elt F) (VO0_3.writes (Elt F) VO0_3.junk []),
   sout0_B_0 c (grid0.coords t) (ms0_0 t) (hs0_0 t) (ms0_1 t) (hs0_1 t) (ms0_2 t) (hs0_2 t) (ms0_3 t) (hs0_3 t) scM0_0 (Memref.isWhole_whole _) (cB0 t h0) (cB1 t h0) (cB2 t h7) (iblk m c 0 t) (iblk m c 1 t) xs)
/-- At a batch's last tile, over the scratch `xs` the tile before left. -/
def atC (c : Dev nD) (t : Fin cfg0.N) (h0 : ¬ t.val % 8 = 0) (h7 : t.val % 8 = 7) (xs : Vec F S1x4096 .f32) :
    Vec F S1x512x1 .f32 × Vec F S1x1x4096 .f32 × Vec F S1x4096 .f32 :=
  (out0_C_2 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs,
   out0_C_3 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs,
   sout0_C_0 c (grid0.coords t) (ms0_0 t) (hs0_0 t) (ms0_1 t) (hs0_1 t) (ms0_2 t) (hs0_2 t) (ms0_3 t) (hs0_3 t) scM0_0 (Memref.isWhole_whole _) (cB0 t h0) (cB1 t h0) (cC2 t h7) (iblk m c 0 t) (iblk m c 1 t) xs)

/-- What the three buffers hold after the body at position `n`, by recursion on the position: the case the position
    selects, a later tile's over the scratch the position before left. -/
def outsAt0 (c : Dev nD) : (n : ℕ) → n < cfg0.N → Vec F S1x512x1 .f32 × Vec F S1x1x4096 .f32 × Vec F S1x4096 .f32
  | 0, hn => atA m c ⟨0, hn⟩ (Nat.zero_mod _)
  | n + 1, hn =>
    if h0 : (n + 1) % 8 = 0 then atA m c ⟨n + 1, hn⟩ h0
    else if h7 : (n + 1) % 8 = 7 then atC m c ⟨n + 1, hn⟩ h0 h7 (outsAt0 c n (Nat.lt_of_succ_lt hn)).2.2
    else atB m c ⟨n + 1, hn⟩ h0 h7 (outsAt0 c n (Nat.lt_of_succ_lt hn)).2.2

theorem outsAt0_A (c : Dev nD) (t : Fin cfg0.N) (h0 : t.val % 8 = 0) : outsAt0 m c t.val t.isLt = atA m c t h0 := by
  obtain ⟨n, hn⟩ := t
  cases n with
  | zero => exact rfl
  | succ n => exact (dif_pos h0).trans rfl

theorem outsAt0_B (c : Dev nD) (t : Fin cfg0.N) (h0 : ¬ t.val % 8 = 0) (h7 : ¬ t.val % 8 = 7) :
    outsAt0 m c t.val t.isLt = atB m c t h0 h7 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h7).trans rfl)

theorem outsAt0_C (c : Dev nD) (t : Fin cfg0.N) (h0 : ¬ t.val % 8 = 0) (h7 : t.val % 8 = 7) :
    outsAt0 m c t.val t.isLt = atC m c t h0 h7 (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h7).trans rfl)

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block, the outputs' at
    `outsAt0`'s components; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's number mod 8 says which case it is in; the
    invariant hands the body the scratch (at anything at the very first point, else at what the point before left) and
    takes it back at this point's contents; the second output's buffer is handed back untouched except at a last tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · rw [Dat.leavesExact_idle (dats m 0 c) 3 t (idleAt0_3 t (cA2 t h0)) (noFlush0_3 t (cA2 t h0))]
    rw [outsAt0_A m c t h0]
    unfold atA out0_A_2 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (cA0 t h0) (cA1 t h0) (cA2 t h0) (iblk m c 0 t) (iblk m c 1 t)).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ (cA0 t h0) (cA1 t h0) (cA2 t h0) (iblk m c 0 t) (iblk m c 1 t)).2.2 _ Set.univ _)
      isplitl [H0]; · iexact H0
      isplitl [H1]; · iexact H1
      isplitl [H2]; · iexists _; iexact H2
      isplitl [H3]; · iexact H3
      isplitl [HS0]; · iexists _; iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _)
      iexists _; iexact H3
  · have hz : t.val ≠ 0 := fun e => h0 (by rw [e])
    by_cases h7 : t.val % 8 = 7
    · rw [show (dats m 0 c).leavesExact 3 t = owns (c : Thread nD τ) (ms0_3 t) fullShare ((dats m 0 c).after 3 t) from by
        unfold Dat.leavesExact; rw [liveAt0_3 t (cC2 t h7)], after0_3]
      rw [outsAt0_C m c t h0 h7]
      unfold atC out0_C_2 out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (cB0 t h0) (cB1 t h0) (cC2 t h7) (iblk m c 0 t) (iblk m c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (cB2 t h7)) (noFlush0_3 t (cB2 t h7))]
      rw [outsAt0_B m c t h0 h7]
      unfold atB out0_B_2 sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (cB0 t h0) (cB1 t h0) (cB2 t h7) (iblk m c 0 t) (iblk m c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, every array of the pipeline ending at what the proof data compute and
    every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: the program runs to its end and both arguments end as launched — `x` as the input array the pipeline
    stages and never writes, `y` as a buffer that bypasses the region and that no host line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c)⟩) (run_main m ρ)

end Cert.KernelIdeal.Hand

end
-- ==== Proof.KiPieces.lean ====
/-
  What each case of the kernel body leaves in the buffers it stores into, as the body's own arithmetic: the first
  output's buffer holds the tile's row minima; the scratch holds the tile's column minima at a batch's first tile and
  the smaller of its old contents and the tile's column minima afterwards; at a batch's last tile the second output's
  buffer holds what the scratch then holds. Each is the single whole-buffer store's value read back.
-/
import proofs.«140159_j10625749090595_1_alg».proof.Proof.KiFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Every store of the body goes through the rectangle that is the whole of its buffer: origin zero on every axis, the
buffer's own extents. One such store covers the buffer, so what a covering list of stores leaves — at each index the
value of the latest store that holds it — is here that one store's value. The value's operands are loads through the
same kind of rectangle of buffers held whole at `x0`, `x1` (and the scratch at `xs0`): such a load reads the
contents themselves. So each buffer ends at the body's own arithmetic applied to `x0`, `x1`, `xs0`. -/

/-- The origin of a rank-3 whole-buffer rectangle is zero on every axis. -/
private theorem hz3 : (![0, 0, 0] : Fin 3 → Nat) = fun _ => 0 := funext fun a => by fin_cases a <;> rfl
/-- The origin of a rank-2 whole-buffer rectangle is zero on every axis. -/
private theorem hz2 : (![0, 0] : Fin 2 → Nat) = fun _ => 0 := funext fun a => by fin_cases a <;> rfl

/-- At a batch's first tile the first output's buffer receives one store, over the whole buffer, of the tile's row
    minima computed from the two input buffers read whole: read back, the buffer holds that value. -/
theorem out0_A_2_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) :
    out0_A_2 c i arg2 harg2 arg3 harg3 arg4 harg4 arg5 harg5 arg6 harg6 hc0 hc1 hc2 x0 x1 = k0_pay2 x0 x1 := by
  unfold out0_A_2
  rw [View.read_writes_eq_canon _ _ _ (cover0_A_2 c i arg2 harg2 arg3 harg3 arg4 harg4 arg5 harg5 arg6 harg6 hc0 hc1 hc2 x0 x1)]
  unfold kernelRun0_A
  dsimp only
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a batch's first tile the scratch receives one store, over the whole buffer, of the tile's column minima,
    whatever it held before: read back, it holds the tile's own contribution. -/
theorem sout0_A_0_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i) (hc2 : ¬cond0_2 i)
    (x0 : Vec F S1x512x3 .f32) (x1 : Vec F S1x3x4096 .f32) :
    sout0_A_0 c i arg2 harg2 arg3 harg3 arg4 harg4 arg5 harg5 arg6 harg6 hc0 hc1 hc2 x0 x1 = k0_pay4 x0 x1 := by
  unfold sout0_A_0
  rw [View.read_writes_eq_canon _ _ _ (scover0_A_0 c i arg2 harg2 arg3 harg3 arg4 harg4 arg5 harg5 arg6 harg6 hc0 hc1 hc2 x0 x1)]
  unfold kernelRun0_A
  dsimp only
  rw [View.canon_unit_zero hz2]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a middle tile the first output's buffer again receives the single whole-buffer store of the tile's row minima. -/
theorem out0_B_2_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) :
    out0_B_2 c i arg2 harg2 arg3 harg3 arg4 harg4 arg5 harg5 arg6 harg6 hc0 hc1 hc2 x0 x1 xs0 = k0_pay2 x0 x1 := by
  unfold out0_B_2
  rw [View.read_writes_eq_canon _ _ _ (cover0_B_2 c i arg2 harg2 arg3 harg3 arg4 harg4 arg5 harg5 arg6 harg6 hc0 hc1 hc2 x0 x1 xs0)]
  unfold kernelRun0_B
  dsimp only
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a middle tile the scratch is loaded whole (it reads what the tile before left, `xs0`) and receives one store,
    over the whole buffer, of the smaller of that and the tile's column minima. -/
theorem sout0_B_0_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : ¬cond0_2 i)
    (x0 : Vec F S1x512x3 .f32) (x1 : Vec F S1x3x4096 .f32) (xs0 : Vec F S1x4096 .f32) :
    sout0_B_0 c i arg2 harg2 arg3 harg3 arg4 harg4 arg5 harg5 arg6 harg6 hc0 hc1 hc2 x0 x1 xs0 = k0_pay5 x0 x1 xs0 := by
  unfold sout0_B_0
  rw [View.read_writes_eq_canon _ _ _ (scover0_B_0 c i arg2 harg2 arg3 harg3 arg4 harg4 arg5 harg5 arg6 harg6 hc0 hc1 hc2 x0 x1 xs0)]
  unfold kernelRun0_B
  dsimp only
  rw [View.canon_unit_zero hz2]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a batch's last tile the first output's buffer receives the single whole-buffer store of the tile's row minima. -/
theorem out0_C_2_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) :
    out0_C_2 c i arg2 harg2 arg3 harg3 arg4 harg4 arg5 harg5 arg6 harg6 hc0 hc1 hc2 x0 x1 xs0 = k0_pay2 x0 x1 := by
  unfold out0_C_2
  rw [View.read_writes_eq_canon _ _ _ (cover0_C_2 c i arg2 harg2 arg3 harg3 arg4 harg4 arg5 harg5 arg6 harg6 hc0 hc1 hc2 x0 x1 xs0)]
  unfold kernelRun0_C
  dsimp only
  rw [View.canon_unit_zero hz3]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a batch's last tile the scratch is updated as at a middle tile: one whole-buffer store of the smaller of its
    old contents and the tile's column minima. -/
theorem sout0_C_0_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) :
    sout0_C_0 c i arg2 harg2 arg3 harg3 arg4 harg4 arg5 harg5 arg6 harg6 hc0 hc1 hc2 x0 x1 xs0 = k0_pay5 x0 x1 xs0 := by
  unfold sout0_C_0
  rw [View.read_writes_eq_canon _ _ _ (scover0_C_0 c i arg2 harg2 arg3 harg3 arg4 harg4 arg5 harg5 arg6 harg6 hc0 hc1 hc2 x0 x1 xs0)]
  unfold kernelRun0_C
  dsimp only
  sl_unfold_words
  rw [View.canon_unit_zero hz2]
  simp only [View.readAt_eq_ld, harg2.read_unread, harg3.read_unread, harg6.read_unread,
    View.ld_unit_zero (S := S1x512x3) hz3, View.ld_unit_zero (S := S1x3x4096) hz3, View.ld_unit_zero (S := S1x4096) hz2]
/-- At a batch's last tile the second output's buffer receives one whole-buffer store of the scratch as loaded AFTER
    its update. That load goes through the whole scratch, which the one store before it covers, so it reads that
    store's value: the buffer holds the updated running minimum, with a unit axis put in front. -/
theorem out0_C_3_eq (c : Dev nD) (i : grid0.Coords) (arg2 : Memref sig .tc .vmem S1x512x3 .f32) (harg2 : arg2.IsWhole) (arg3 : Memref sig .tc .vmem S1x3x4096 .f32) (harg3 : arg3.IsWhole) (arg4 : Memref sig .tc .vmem S1x512x1 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i) (hc2 : cond0_2 i)
    (x0 : Vec F S1x512x3 .f32) (x1 : Vec F S1x3x4096 .f32) (xs0 : Vec F S1x4096 .f32) :
    out0_C_3 c i arg2 harg2 arg3 harg3 arg4 harg4 arg5 harg5 arg6 harg6 hc0 hc1 hc2 x0 x1 xs0 = k0_pay6 (k0_pay5 x0 x1 xs0) := by
  unfold out0_C_3
  rw [View.read_writes_eq_canon _ _ _ (cover0_C_3 c i arg2 harg2 arg3 harg3 arg4 harg4 arg5 harg5 arg6 harg6 hc0 hc1 hc2 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread,
    View.ld_unit_zero (S := S1x512x3) hz3, View.ld_unit_zero (S := S1x3x4096) hz3, View.ld_unit_zero (S := S1x4096) hz2]

end Cert.KernelIdeal.Hand

end
-- ==== Proof.ChamferSpec.lean ====
/-
  Two clouds of 8 × 4096 points in 3-space and the matrix of squared distances between them, as functions of
  coordinates on the extended reals: `d2 b n m = (|x_n|² + |y_m|²) − 2·⟨x_n, y_m⟩`, grouped exactly so (the sum of the
  two squared norms first, then the doubled inner product subtracted), and its two directed minima — for each point of
  `x` the least squared distance to a point of `y` (`toY`), for each point of `y` the least to a point of `x`
  (`toX`) —, each a fold of `min` from +∞ over the 4096 candidates. +∞ and 2 are kept as the f32 words that spell
  them: every program here writes the same words, so nothing ever evaluates them.
-/
import Idealize.ShloMosaic.PureOps.Ideal
import Idealize.ShloMosaic.PureOps.Ideal.Laws
import Idealize.ShloMosaic.Lib.ValueIdx

noncomputable section

namespace Chamfer

open Idealize.ShloMosaic

/-- +∞, as the word `0x7F800000` read at the ideal values. -/
abbrev top : EReal := Ideal.ofBits .f32 0x7F800000#32
/-- 2, as the word `0x40000000` read at the ideal values. -/
abbrev two : EReal := Ideal.ofBits .f32 0x40000000#32

/-- A cloud: batch, point, coordinate. -/
abbrev Cloud : Type := Fin 8 → Fin 4096 → Fin 3 → EReal

/-- The cloud an [8, 4096, 3] array holds. -/
def cloud (X : (⟨3, ![8, 4096, 3]⟩ : Shape).Idx → EReal) : Cloud := fun b n d => X (ValueIdx.ix3 b n d)

/-- The squared norm of point `n` of batch `b`. -/
def sq (x : Cloud) (b : Fin 8) (n : Fin 4096) : EReal := ∑ d : Fin 3, x b n d * x b n d
/-- The inner product of point `n` of `x` with point `m` of `y`. -/
def dot (x y : Cloud) (b : Fin 8) (n m : Fin 4096) : EReal := ∑ d : Fin 3, x b n d * y b m d
/-- The squared distance, in the grouping both programs compute it in. -/
def d2 (x y : Cloud) (b : Fin 8) (n m : Fin 4096) : EReal := (sq x b n + sq y b m) - two * dot x y b n m
/-- For point `n` of `x`: the least squared distance to a point of `y`. -/
def toY (x y : Cloud) (b : Fin 8) (n : Fin 4096) : EReal := Finset.univ.fold min top (fun m : Fin 4096 => d2 x y b n m)
/-- For point `m` of `y`: the least squared distance to a point of `x`. -/
def toX (x y : Cloud) (b : Fin 8) (m : Fin 4096) : EReal := Finset.univ.fold min top (fun n : Fin 4096 => d2 x y b n m)

/-- A function of the 4096 points read at any natural number: +∞ past the end (never reached by the eight tiles). -/
def ext (f : Fin 4096 → EReal) (n : ℕ) : EReal := if h : n < 4096 then f ⟨n, h⟩ else top
/-- The least value of `f` over the 512 points of tile `j` (points 512·j … 512·j + 511). -/
def tileMin (f : Fin 4096 → EReal) (j : ℕ) : EReal := Finset.univ.fold min top (fun r : Fin 512 => ext f (512 * j + r.val))
/-- The running minimum a tiled scan keeps: tile 0's minimum, then at each later tile the smaller of what it
    held and that tile's minimum. After tile 7 it is the minimum over all 4096 points. -/
def runMin (f : Fin 4096 → EReal) : ℕ → EReal
  | 0 => tileMin f 0
  | j + 1 => min (runMin f j) (tileMin f (j + 1))

end Chamfer

end
-- ==== Proof.KiBlocks.lean ====
/-
  What the two input blocks hold at a grid point, coordinate by coordinate.
  The grid is 8 batches × 8 row-tiles; point t is batch t / 8, tile t % 8. The block of x at point t is rows
  512·(t % 8) … 512·(t % 8) + 511 of batch t / 8, all three coordinates: its entry (0, r, d) is
  x[t / 8, 512·(t % 8) + r, d]. The block of the transposed y at point t is the whole of batch t / 8, coordinates by
  points: its entry (0, d, m) is yᵀ[t / 8, d, m] = y[t / 8, m, d].
-/
import proofs.«140159_j10625749090595_1_alg».proof.Proof.KiSetup
import proofs.«140159_j10625749090595_1_alg».proof.Proof.ChamferSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## The two clouds, and a point's batch and rows -/

/-- The cloud `x`: the first argument as launched, read by batch, point, coordinate. -/
def X (c : Dev nD) : Chamfer.Cloud := Chamfer.cloud (m ((c : Thread nD τ).loc main_arg0))
/-- The cloud `y`: the second argument as launched. -/
def Y (c : Dev nD) : Chamfer.Cloud := Chamfer.cloud (m ((c : Thread nD τ).loc main_arg1))

/-- The grid has 8 · 8 = 64 points. -/
theorem N64 : cfg0.N = 64 := N_0

/-- Point `t`'s batch: t / 8. -/
def bOf (t : Fin cfg0.N) : Fin 8 := ⟨t.val / 8, by have h : t.val < 64 := lt_of_lt_of_eq t.isLt N64; omega⟩
/-- Row `r` of point `t`'s tile, as a row of the cloud: 512 · (t % 8) + r. -/
def rowOf (t : Fin cfg0.N) (r : Fin 512) : Fin 4096 :=
  ⟨512 * (t.val % 8) + r.val, by have h := r.isLt; omega⟩

/-! ## The block indices over the grid -/

/-- The block of `x` at point `t` is block (t / 8, t % 8, 0). -/
theorem xidx : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, win0_0.index t (0 : Fin 3) = t.val / 8 ∧ win0_0.index t (1 : Fin 3) = t.val % 8
    ∧ win0_0.index t (2 : Fin 3) = 0)

/-- The block of the transposed `y` at point `t` is block (t / 8, 0, 0): it does not move within a batch. -/
theorem yidx : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

/-! ## The block of `x` -/

/-- Entry (0, r, d) of the block of `x` at point `t` is x[t / 8, 512·(t % 8) + r, d]: on each axis the array's
    coordinate is the block index times the block's extent plus the coordinate inside the block, that is
    (t / 8)·1 + 0, (t % 8)·512 + r and 0·3 + d; and `x` is found as launched. -/
theorem xblk_apply (c : Dev nD) (t : Fin cfg0.N) (r : Fin 512) (d : Fin 3) :
    (iblk m c 0 t : Vec Ideal S1x512x3 .f32) (ix3 0 r d) = X m c (bOf t) (rowOf t r) d := by
  obtain ⟨e0, e1, e2⟩ := xidx t
  show V m c main_arg0 (((cfg0.win 0).blk t).view.emb (ix3 0 r d)) = _
  rw [V_main_arg0]
  show m ((c : Thread nD τ).loc main_arg0) (((cfg0.win 0).blk t).view.emb (ix3 0 r d))
    = m ((c : Thread nD τ).loc main_arg0) (ix3 (bOf t) (rowOf t r) d)
  congr 1
  funext a; apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 3 + 1 * d.val = d.val; omega

/-! ## The block of the transposed `y` -/

/-- The array the second window stages is, when the region is entered, `y` with its last two axes swapped. -/
theorem V_main_v0 (c : Dev nD) : (V m c main_v0 : S8x3x4096.Idx → EReal)
    = transpose S8x3x4096 [0, 2, 1] (m ((c : Thread nD τ).loc main_arg1)) Facts₀.transposes_S8x4096x3_S8x3x4096_0_2_1 := by
  show StableHlo.after hostOps0 (fun b => m (c, b)) (Proc.devRef .tc main_v0) = _
  after_results

/-- Entry (0, d, mm) of the block of the transposed `y` at point `t` is y[t / 8, mm, d]: the array's coordinates are
    (t / 8)·1 + 0, 0·3 + d and 0·4096 + mm, and the transposed array at (b, d, mm) is `y` at (b, mm, d). -/
theorem yblk_apply (c : Dev nD) (t : Fin cfg0.N) (d : Fin 3) (mm : Fin 4096) :
    (iblk m c 1 t : Vec Ideal S1x3x4096 .f32) (ix3 0 d mm) = Y m c (bOf t) mm d := by
  obtain ⟨e0, e1, e2⟩ := yidx t
  show (V m c main_v0 : S8x3x4096.Idx → EReal) (((cfg0.win 1).blk t).view.emb (ix3 0 d mm)) = _
  have hi : ((cfg0.win 1).blk t).view.emb (ix3 0 d mm) = (ix3 (bOf t) d mm : S8x3x4096.Idx) := by
    funext a; apply Fin.ext
    match a with
    | ⟨0, _⟩ => show win0_1.index t (0 : Fin 3) * 1 + 1 * 0 = t.val / 8; omega
    | ⟨1, _⟩ => show win0_1.index t (1 : Fin 3) * 3 + 1 * d.val = d.val; omega
    | ⟨2, _⟩ => show win0_1.index t (2 : Fin 3) * 4096 + 1 * mm.val = mm.val; omega
  rw [hi, V_main_v0, transpose_ix3_021_apply]
  rfl

end Cert.KernelIdeal.Hand

end
-- ==== Proof.Payload.lean ====
/-
  The arithmetic of one step of the tiled scan, read entry by entry on the extended reals. A step holds one tile of 512
  points of `x` (a `[1, 512, 3]` block) and all 4096 points of `y`, transposed (a `[1, 3, 4096]` block). It forms the
  512 × 4096 block of squared distances `(|x_r|² + |y_m|²) − 2·⟨x_r, y_m⟩`: the squared norms are sums of squares over
  the three coordinates, kept as a column and as a row and spread over the block, and the inner products are one matrix
  product accumulated into zero. From the block it takes two minima, each a fold of `min` from +∞: along each row (the
  least squared distance from a point of the tile to `y`), and along each column (the tile's contribution to the least
  squared distance from a point of `y` to `x`, which the scan keeps as a running minimum over the tiles).
  `blkD2` is that block as a function of the two loaded blocks' coordinates, and `pay1_apply` … `pay6_apply` say what
  the body's six pure values are when read at an index: the block; its row minima; its column minima; the column minima
  again; the smaller of the running minimum and the column minima; the running minimum. The words for 2 and +∞ are
  read as they stand and never evaluated; only the zero word is, as the real 0.
-/
import proofs.«140159_j10625749090595_1_alg».proof.Proof.Gen.KernelIdeal.Skeleton
import proofs.«140159_j10625749090595_1_alg».proof.Proof.ChamferSpec
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

namespace Payload

/-! ### Two layout operations read at an index -/

/-- A vector of `a` entries viewed as a column `[a, 1]` reads, at `(i, u)`, entry `i`: both have row-major
    position `i`, the unit coordinate contributing nothing. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The squared norm of a row and of a column -/

/-- Over a row index `r` of a `[512, 3]` array, inserting the coordinate `d` on the reduced axis 1 gives `(r, d)`. -/
theorem lift_x (r : Fin 512) (d : Fin 3) : reduces_S512x3_S512.lift (ix1 r) d = ix2 r d :=
  funext fun a => Fin.ext (by match a with | ⟨0, _⟩ => rfl | ⟨1, _⟩ => rfl)

/-- Over a column index `mm` of a `[3, 4096]` array, inserting the coordinate `d` on the reduced axis 0 gives `(d, mm)`. -/
theorem lift_y (mm : Fin 4096) (d : Fin 3) : reduces_S3x4096_S4096.lift (ix1 mm) d = ix2 d mm :=
  funext fun a => Fin.ext (by match a with | ⟨0, _⟩ => rfl | ⟨1, _⟩ => rfl)

/-- The squared norm of row `r`: the sum over the three coordinates of the square. -/
theorem x2_apply (v1 : FVec Ideal S512x3 .f32) (r : Fin 512) :
    multiReduction (F := Ideal) .add [1] S512 (mulf v1 v1) 0x00000000#32 reduces_S512x3_S512 (.inl rfl) rfl (ix1 r)
      = ∑ d : Fin 3, v1 (ix2 r d) * v1 (ix2 r d) := by
  refine (Ideal.multiReduction_add_single (mulf v1 v1) 0x00000000#32 reduces_S512x3_S512 (.inl rfl) rfl (ix1 r)).trans ?_
  exact Finset.sum_congr rfl fun d _ => congrArg (fun i => v1 i * v1 i) (lift_x r d)

/-- The squared norm of column `mm`. -/
theorem y2_apply (v3 : FVec Ideal S3x4096 .f32) (mm : Fin 4096) :
    multiReduction (F := Ideal) .add [0] S4096 (mulf v3 v3) 0x00000000#32 reduces_S3x4096_S4096 (.inl rfl) rfl (ix1 mm)
      = ∑ d : Fin 3, v3 (ix2 d mm) * v3 (ix2 d mm) := by
  refine (Ideal.multiReduction_add_single (mulf v3 v3) 0x00000000#32 reduces_S3x4096_S4096 (.inl rfl) rfl (ix1 mm)).trans ?_
  exact Finset.sum_congr rfl fun d _ => congrArg (fun i => v3 i * v3 i) (lift_y mm d)

/-! ### The product `x · yᵀ` read at an index

The record contracts axis 1 of the left operand against axis 0 of the right, and keeps the left operand's axis 0 and the
right operand's axis 1 as the output's two axes. So at output index `(r, mm)` and contraction position `d` the left operand
is read at `(r, d)` and the right at `(d, mm)`: one equation per operand axis. -/

/-- The left operand's kept axis carries the output's row. -/
theorem lhs_axis0 (i : S512x4096.Idx) (q : dot_S512x3_S3x4096_S512x4096_1_0_0_1_n_n.contr.Idx) :
    (dot_S512x3_S3x4096_S512x4096_1_0_0_1_n_n.lhsIdx i q 0).val = (i 0).val := by
  unfold DotDims.lhsIdx
  rw [dif_neg (show ¬(0 : Fin S512x3.rank) ∈ dot_S512x3_S3x4096_S512x4096_1_0_0_1_n_n.lhsBatch by decide),
    dif_pos (show (0 : Fin S512x3.rank) ∈ dot_S512x3_S3x4096_S512x4096_1_0_0_1_n_n.lhsNonContracting by decide)]
  rfl

/-- The left operand's contracted axis carries the contraction position. -/
theorem lhs_axis1 (i : S512x4096.Idx) (q : dot_S512x3_S3x4096_S512x4096_1_0_0_1_n_n.contr.Idx) :
    (dot_S512x3_S3x4096_S512x4096_1_0_0_1_n_n.lhsIdx i q 1).val = (q ⟨0, by decide⟩).val :=
  dot_S512x3_S3x4096_S512x4096_1_0_0_1_n_n.lhsIdx_val_of_single rfl i q

/-- The right operand's contracted axis carries the contraction position. -/
theorem rhs_axis0 (i : S512x4096.Idx) (q : dot_S512x3_S3x4096_S512x4096_1_0_0_1_n_n.contr.Idx) :
    (dot_S512x3_S3x4096_S512x4096_1_0_0_1_n_n.rhsIdx i q 0).val = (q ⟨0, by decide⟩).val :=
  dot_S512x3_S3x4096_S512x4096_1_0_0_1_n_n.rhsIdx_val_of_single rfl i q

/-- The right operand's kept axis carries the output's column. -/
theorem rhs_axis1 (i : S512x4096.Idx) (q : dot_S512x3_S3x4096_S512x4096_1_0_0_1_n_n.contr.Idx) :
    (dot_S512x3_S3x4096_S512x4096_1_0_0_1_n_n.rhsIdx i q 1).val = (i 1).val := by
  unfold DotDims.rhsIdx
  rw [dif_neg (show ¬(1 : Fin S3x4096.rank) ∈ dot_S512x3_S3x4096_S512x4096_1_0_0_1_n_n.rhsBatch by decide),
    dif_pos (show (1 : Fin S3x4096.rank) ∈ dot_S512x3_S3x4096_S512x4096_1_0_0_1_n_n.rhsNonContracting by decide)]
  rfl

/-- Accumulated into zero, the product at `(r, mm)` is the inner product of row `r` of the left operand with column
    `mm` of the right: the sum over the contraction index, re-indexed by its one coordinate `d : Fin 3`. -/
theorem xy_apply (v1 : FVec Ideal S512x3 .f32) (v3 : FVec Ideal S3x4096 .f32) (r : Fin 512) (mm : Fin 4096) :
    matmul (F := Ideal) dot_S512x3_S3x4096_S512x4096_1_0_0_1_n_n none v1 v3 (constant (F := Ideal) S512x4096 .f32 0x00000000#32) (ix2 r mm)
      = ∑ d : Fin 3, v1 (ix2 r d) * v3 (ix2 d mm) := by
  refine (Ideal.matmul_constant_zero_apply dot_S512x3_S3x4096_S512x4096_1_0_0_1_n_n none v1 v3 (ix2 r mm)).trans ?_
  refine (Equiv.sum_comp (contrEquiv1 dot_S512x3_S3x4096_S512x4096_1_0_0_1_n_n 3 rfl rfl).symm _).symm.trans ?_
  refine Finset.sum_congr rfl fun d _ => ?_
  have hd := contrEquiv1_symm_val dot_S512x3_S3x4096_S512x4096_1_0_0_1_n_n 3 rfl rfl d
  have el : dot_S512x3_S3x4096_S512x4096_1_0_0_1_n_n.lhsIdx (ix2 r mm) ((contrEquiv1 dot_S512x3_S3x4096_S512x4096_1_0_0_1_n_n 3 rfl rfl).symm d) = ix2 r d :=
    funext fun a => Fin.ext (by
      match a with
      | ⟨0, _⟩ => exact lhs_axis0 _ _
      | ⟨1, _⟩ => exact (lhs_axis1 _ _).trans hd)
  have er : dot_S512x3_S3x4096_S512x4096_1_0_0_1_n_n.rhsIdx (ix2 r mm) ((contrEquiv1 dot_S512x3_S3x4096_S512x4096_1_0_0_1_n_n 3 rfl rfl).symm d) = ix2 d mm :=
    funext fun a => Fin.ext (by
      match a with
      | ⟨0, _⟩ => exact (rhs_axis0 _ _).trans hd
      | ⟨1, _⟩ => exact rhs_axis1 _ _)
  exact congrArg₂ (fun a b => v1 a * v3 b) el er

/-! ### The two squared norms, spread over the block -/

/-- The rows' squared norms, kept as a column and spread over the 4096 columns: at `(r, mm)` the squared norm of row `r`. -/
theorem sqrow_apply (v1 : FVec Ideal S512x3 .f32) (r : Fin 512) (mm : Fin 4096) :
    broadcastTo S512x4096 (shapeCast S512x1
        (multiReduction (F := Ideal) .add [1] S512 (mulf v1 v1) 0x00000000#32 reduces_S512x3_S512 (.inl rfl) rfl)
        shapeCasts_S512_S512x1) broadcasts_S512x1_S512x4096 (ix2 r mm)
      = ∑ d : Fin 3, v1 (ix2 r d) * v1 (ix2 r d) := by
  refine (broadcastTo_a1_ab_apply _ broadcasts_S512x1_S512x4096 r mm).trans ?_
  refine (shapeCast_a_a1_apply _ shapeCasts_S512_S512x1 r 0).trans ?_
  exact x2_apply v1 r

/-- The columns' squared norms, kept as a row and spread over the 512 rows: at `(r, mm)` the squared norm of column `mm`. -/
theorem sqcol_apply (v3 : FVec Ideal S3x4096 .f32) (r : Fin 512) (mm : Fin 4096) :
    broadcastTo S512x4096 (shapeCast S1x4096
        (multiReduction (F := Ideal) .add [0] S4096 (mulf v3 v3) 0x00000000#32 reduces_S3x4096_S4096 (.inl rfl) rfl)
        shapeCasts_S4096_S1x4096) broadcasts_S1x4096_S512x4096 (ix2 r mm)
      = ∑ d : Fin 3, v3 (ix2 d mm) * v3 (ix2 d mm) := by
  refine (broadcastTo_1b_ab_apply _ broadcasts_S1x4096_S512x4096 r mm).trans ?_
  refine (shapeCast_a_1a_apply _ shapeCasts_S4096_S1x4096 0 mm).trans ?_
  exact y2_apply v3 mm

/-! ### The operands without their unit axes, and the block's arithmetic over them -/

/-- A `[1, 512, 3]` block without its unit axis reads `(r, d)` at `(0, r, d)`. -/
theorem xs_apply (x0 : Vec Ideal S1x512x3 .f32) (r : Fin 512) (d : Fin 3) :
    shapeCast S512x3 x0 shapeCasts_S1x512x3_S512x3 (ix2 r d) = x0 (ix3 0 r d) :=
  shapeCast_1ab_ab_apply x0 shapeCasts_S1x512x3_S512x3 r d

/-- A `[1, 3, 4096]` block without its unit axis reads `(d, mm)` at `(0, d, mm)`. -/
theorem ys_apply (y0 : Vec Ideal S1x3x4096 .f32) (d : Fin 3) (mm : Fin 4096) :
    shapeCast S3x4096 y0 shapeCasts_S1x3x4096_S3x4096 (ix2 d mm) = y0 (ix3 0 d mm) :=
  shapeCast_1ab_ab_apply y0 shapeCasts_S1x3x4096_S3x4096 d mm

/-- The arithmetic of the block over the two operands without their unit axes: elementwise, the sum of the two spread
    squared norms less the product of the constant 2 (its word read as it stands) with the inner product. -/
theorem core_apply (v1 : FVec Ideal S512x3 .f32) (v3 : FVec Ideal S3x4096 .f32) (r : Fin 512) (mm : Fin 4096) :
    subf
        (addf
          (broadcastTo S512x4096 (shapeCast S512x1
            (multiReduction (F := Ideal) .add [1] S512 (mulf v1 v1) 0x00000000#32 reduces_S512x3_S512 (.inl rfl) rfl)
            shapeCasts_S512_S512x1) broadcasts_S512x1_S512x4096)
          (broadcastTo S512x4096 (shapeCast S1x4096
            (multiReduction (F := Ideal) .add [0] S4096 (mulf v3 v3) 0x00000000#32 reduces_S3x4096_S4096 (.inl rfl) rfl)
            shapeCasts_S4096_S1x4096) broadcasts_S1x4096_S512x4096))
        (mulf (broadcast S512x4096 (Scalar.ofBits (F := Ideal) .f32 0x40000000#32))
          (matmul (F := Ideal) dot_S512x3_S3x4096_S512x4096_1_0_0_1_n_n none v1 v3 (constant (F := Ideal) S512x4096 .f32 0x00000000#32)))
        (ix2 r mm)
      = ((∑ d : Fin 3, v1 (ix2 r d) * v1 (ix2 r d)) + (∑ d : Fin 3, v3 (ix2 d mm) * v3 (ix2 d mm)))
          - Chamfer.two * ∑ d : Fin 3, v1 (ix2 r d) * v3 (ix2 d mm) :=
  congrArg₂ (· - ·) (congrArg₂ (· + ·) (sqrow_apply v1 r mm) (sqcol_apply v3 r mm))
    (congrArg (Chamfer.two * ·) (xy_apply v1 v3 r mm))

/-! ### A minimum along one axis of the block -/

/-- Over a row index `r` of a `[512, 4096]` array, inserting `mm` on the reduced axis 1 gives `(r, mm)`. -/
theorem lift_row (r : Fin 512) (mm : Fin 4096) : reduces_S512x4096_S512.lift (ix1 r) mm = ix2 r mm :=
  funext fun a => Fin.ext (by match a with | ⟨0, _⟩ => rfl | ⟨1, _⟩ => rfl)

/-- Over a column index `mm` of a `[512, 4096]` array, inserting `r` on the reduced axis 0 gives `(r, mm)`. -/
theorem lift_col (mm : Fin 4096) (r : Fin 512) : reduces_S512x4096_S4096.lift (ix1 mm) r = ix2 r mm :=
  funext fun a => Fin.ext (by match a with | ⟨0, _⟩ => rfl | ⟨1, _⟩ => rfl)

/-- The minimum along the columns, from the word of +∞: at row `r` the fold of `min` from +∞ over the 4096 entries of
    the row. (A minimum is commutative and associative, so the order of the fold is immaterial.) -/
theorem minrow_apply (src : FVec Ideal S512x4096 .f32) (r : Fin 512) :
    multiReduction (F := Ideal) .minimumf [1] S512 src 0x7F800000#32 reduces_S512x4096_S512 (.inl rfl) rfl (ix1 r)
      = Finset.univ.fold min Chamfer.top (fun mm : Fin 4096 => src (ix2 r mm)) := by
  refine (multiReduction_minimumf_eq_fold src 0x7F800000#32 reduces_S512x4096_S512 (.inl rfl) rfl (ix1 r)).trans ?_
  refine (reduces_S512x4096_S512.fold_filter_drop_single _ _ src (ix1 r)).trans ?_
  exact Finset.fold_congr fun mm _ => congrArg src (lift_row r mm)

/-- The minimum along the rows, from the word of +∞: at column `mm` the fold of `min` from +∞ over the 512 entries of
    the column. -/
theorem mincol_apply (src : FVec Ideal S512x4096 .f32) (mm : Fin 4096) :
    multiReduction (F := Ideal) .minimumf [0] S4096 src 0x7F800000#32 reduces_S512x4096_S4096 (.inl rfl) rfl (ix1 mm)
      = Finset.univ.fold min Chamfer.top (fun r : Fin 512 => src (ix2 r mm)) := by
  refine (multiReduction_minimumf_eq_fold src 0x7F800000#32 reduces_S512x4096_S4096 (.inl rfl) rfl (ix1 mm)).trans ?_
  refine (reduces_S512x4096_S4096.fold_filter_drop_single _ _ src (ix1 mm)).trans ?_
  exact Finset.fold_congr fun r _ => congrArg src (lift_col mm r)

end Payload

open Payload

/-! ### The squared-distance block -/

/-- The block of squared distances between the rows of one tile of `x` and all the points of `y`, as functions of the
    loaded blocks' coordinates: the two squared norms added first, then twice the inner product subtracted. -/
def blkD2 (x0 : Vec Ideal S1x512x3 .f32) (y0 : Vec Ideal S1x3x4096 .f32) (r : Fin 512) (mm : Fin 4096) : EReal :=
  ((∑ d : Fin 3, x0 (ix3 0 r d) * x0 (ix3 0 r d)) + (∑ d : Fin 3, y0 (ix3 0 d mm) * y0 (ix3 0 d mm)))
    - Chamfer.two * ∑ d : Fin 3, x0 (ix3 0 r d) * y0 (ix3 0 d mm)

/-- The body's first pure value is the squared-distance block. -/
theorem pay1_apply (x0 : Vec Ideal S1x512x3 .f32) (y0 : Vec Ideal S1x3x4096 .f32) (r : Fin 512) (mm : Fin 4096) :
    k0_pay1 (F := Ideal) x0 y0 (ix2 r mm) = blkD2 x0 y0 r mm := by
  unfold k0_pay1 blkD2
  refine (core_apply (shapeCast S512x3 x0 shapeCasts_S1x512x3_S512x3)
    (shapeCast S3x4096 y0 shapeCasts_S1x3x4096_S3x4096) r mm).trans ?_
  exact congrArg₂ (· - ·)
    (congrArg₂ (· + ·)
      (Finset.sum_congr rfl fun d _ => congrArg₂ (· * ·) (xs_apply x0 r d) (xs_apply x0 r d))
      (Finset.sum_congr rfl fun d _ => congrArg₂ (· * ·) (ys_apply y0 d mm) (ys_apply y0 d mm)))
    (congrArg (Chamfer.two * ·)
      (Finset.sum_congr rfl fun d _ => congrArg₂ (· * ·) (xs_apply x0 r d) (ys_apply y0 d mm)))

/-! ### The two directed minima of the block, and what is stored -/

/-- The value stored to the first output: for each row of the tile, the least squared distance to a point of `y`. -/
theorem pay2_apply (x0 : Vec Ideal S1x512x3 .f32) (y0 : Vec Ideal S1x3x4096 .f32) (r : Fin 512) :
    k0_pay2 (F := Ideal) x0 y0 (ix3 0 r 0)
      = Finset.univ.fold min Chamfer.top (fun mm : Fin 4096 => blkD2 x0 y0 r mm) := by
  unfold k0_pay2
  refine (shapeCast_ab_1ab_apply _ shapeCasts_S512x1_S1x512x1 0 r 0).trans ?_
  refine (shapeCast_a_a1_apply _ shapeCasts_S512_S512x1 r 0).trans ?_
  refine (minrow_apply (k0_pay1 (F := Ideal) x0 y0) r).trans ?_
  exact Finset.fold_congr fun mm _ => pay1_apply x0 y0 r mm

/-- This tile's contribution to the second output: for each point of `y`, the least squared distance to a row of the tile. -/
theorem pay3_apply (x0 : Vec Ideal S1x512x3 .f32) (y0 : Vec Ideal S1x3x4096 .f32) (mm : Fin 4096) :
    k0_pay3 (F := Ideal) x0 y0 (ix2 0 mm)
      = Finset.univ.fold min Chamfer.top (fun r : Fin 512 => blkD2 x0 y0 r mm) := by
  unfold k0_pay3
  refine (shapeCast_a_1a_apply _ shapeCasts_S4096_S1x4096 0 mm).trans ?_
  refine (mincol_apply (k0_pay1 (F := Ideal) x0 y0) mm).trans ?_
  exact Finset.fold_congr fun r _ => pay1_apply x0 y0 r mm

/-- What the first tile writes to the running minimum: its own contribution (a cast to the same shape changes nothing). -/
theorem pay4_apply (x0 : Vec Ideal S1x512x3 .f32) (y0 : Vec Ideal S1x3x4096 .f32) (mm : Fin 4096) :
    k0_pay4 (F := Ideal) x0 y0 (ix2 0 mm) = k0_pay3 (F := Ideal) x0 y0 (ix2 0 mm) := by
  unfold k0_pay4
  exact congrFun (shapeCast_self (k0_pay3 (F := Ideal) x0 y0) shapeCasts_S1x4096_S1x4096) (ix2 0 mm)

/-- What a later tile writes to the running minimum: the smaller of what it held and the tile's contribution. -/
theorem pay5_apply (x0 : Vec Ideal S1x512x3 .f32) (y0 : Vec Ideal S1x3x4096 .f32) (s : Vec Ideal S1x4096 .f32)
    (mm : Fin 4096) :
    k0_pay5 (F := Ideal) x0 y0 s (ix2 0 mm) = min (s (ix2 0 mm)) (k0_pay3 (F := Ideal) x0 y0 (ix2 0 mm)) := by
  unfold k0_pay5
  exact congrFun (shapeCast_self (minimumf s (k0_pay3 (F := Ideal) x0 y0)) shapeCasts_S1x4096_S1x4096) (ix2 0 mm)

/-- What the last tile stores to the second output: the running minimum, with a unit axis put in front. -/
theorem pay6_apply (s : Vec Ideal S1x4096 .f32) (mm : Fin 4096) :
    k0_pay6 (F := Ideal) s (ix3 0 0 mm) = s (ix2 0 mm) := by
  unfold k0_pay6
  exact shapeCast_ab_1ab_apply s shapeCasts_S1x4096_S1x1x4096 0 0 mm

end Cert.KernelIdeal.Hand

end
-- ==== Proof.ChamferLemmas.lean ====
/-
  Order theory of the tiled minimum. A fold of `min` from a seed `t` with `min t t = t` splits over a range cut in
  two: `min` is commutative and associative, so the fold over a disjoint union is the `min` of the two folds, and the
  two seeds collapse into one because `min t t = t`. Hence the running minimum after tile `j` is the fold over the
  first `512·(j+1)` points, and after tile 7 it is the fold over all 4096. The seed is never evaluated.
-/
import proofs.«140159_j10625749090595_1_alg».proof.Proof.ChamferSpec
import Mathlib.Data.Finset.Fold
import Mathlib.Data.Fintype.Fin
import Mathlib.Algebra.Group.Nat.Range
import Mathlib.Order.Interval.Finset.Nat

noncomputable section

namespace Chamfer

/-- Folding over the `n` indices of `Fin n` a function that only reads the index's value is folding over
    `range n`: the values of `Fin n` are exactly the numbers below `n`, each once. -/
theorem fold_fin_val (n : ℕ) (h : ℕ → EReal) :
    (Finset.univ : Finset (Fin n)).fold min top (fun r => h r.val) = (Finset.range n).fold min top h := by
  rw [← Nat.Iio_eq_range, ← Fin.map_valEmbedding_univ, Finset.fold_map]
  rfl

/-- The fold over the first `a + k` numbers is the smaller of the fold over the first `a` and the fold over the
    next `k`: `range (a + k)` is the disjoint union of `range a` and the shifted `range k`, and the two seeds
    merge by `min top top = top`. -/
theorem fold_range_add (h : ℕ → EReal) (a k : ℕ) :
    (Finset.range (a + k)).fold min top h
      = min ((Finset.range a).fold min top h) ((Finset.range k).fold min top (fun r => h (a + r))) := by
  have key := Finset.fold_disjUnion (op := min) (f := h) (b₁ := top) (b₂ := top)
    (Finset.disjoint_range_addLeftEmbedding a (Finset.range k))
  rw [min_self, Finset.disjUnion_eq_union, ← Finset.range_add, Finset.fold_map] at key
  exact key

/-- A tile's minimum as a fold over `range 512` of the shifted function. -/
theorem tileMin_range (f : Fin 4096 → EReal) (j : ℕ) :
    tileMin f j = (Finset.range 512).fold min top (fun r => ext f (512 * j + r)) :=
  fold_fin_val 512 (fun r => ext f (512 * j + r))

theorem runMin_zero (f : Fin 4096 → EReal) : runMin f 0 = tileMin f 0 := rfl

theorem runMin_succ (f : Fin 4096 → EReal) (j : ℕ) :
    runMin f (j + 1) = min (runMin f j) (tileMin f (j + 1)) := rfl

/-- After tile `j` the running minimum is the fold over the first `512·(j+1)` points. -/
theorem runMin_range (f : Fin 4096 → EReal) (j : ℕ) :
    runMin f j = (Finset.range (512 * (j + 1))).fold min top (ext f) := by
  induction j with
  | zero =>
    rw [runMin_zero, tileMin_range]
    simp only [Nat.mul_zero, Nat.zero_add, Nat.mul_one]
  | succ j ih =>
    rw [runMin_succ, ih, tileMin_range, Nat.mul_succ 512 (j + 1), fold_range_add]

/-- The running minimum over the eight tiles of 512 is the minimum over all 4096 points. -/
theorem runMin_seven (f : Fin 4096 → EReal) : runMin f 7 = Finset.univ.fold min top f := by
  rw [runMin_range]
  have h4096 : 512 * (7 + 1) = 4096 := by norm_num
  rw [h4096, ← fold_fin_val 4096 (ext f)]
  refine Finset.fold_congr (fun r _ => ?_)
  show ext f r.val = f r
  unfold ext
  rw [dif_pos r.isLt]

/-- A tile's minimum from the tile's own 512 values: inside the array the extension reads `f`. -/
theorem tileMin_eq (f : Fin 4096 → EReal) (j : Fin 8) (g : Fin 512 → EReal)
    (hg : ∀ r : Fin 512, g r = f ⟨512 * j.val + r.val, by omega⟩) :
    tileMin f j.val = Finset.univ.fold min top g := by
  unfold tileMin
  refine Finset.fold_congr (fun r _ => ?_)
  show ext f (512 * j.val + r.val) = g r
  rw [hg r]
  unfold ext
  rw [dif_pos]

end Chamfer

end
-- ==== Proof.KiValue.lean ====
/-
  The three buffers after the body at every grid point, as the mathematics names them. Point `t` is tile `t mod 8` of batch
  `t / 8`: its `x` block holds the tile's 512 points, its `y` block all 4096 points of the batch, so the body's squared
  distances are the batch's matrix restricted to the tile's rows. Hence after the body the first output's buffer holds,
  row by row, the least squared distance from that `x` point to `y`; and by induction over the points the scratch holds
  the running minimum over the batch's tiles so far — tile 0 overwrites it, each later tile keeps the smaller — which at
  the batch's last tile is the minimum over all 4096 `x` points, and is what the second output's buffer then receives.
-/
import proofs.«140159_j10625749090595_1_alg».proof.Proof.KiPieces
import proofs.«140159_j10625749090595_1_alg».proof.Proof.KiBlocks
import proofs.«140159_j10625749090595_1_alg».proof.Proof.Payload
import proofs.«140159_j10625749090595_1_alg».proof.Proof.ChamferLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The block of squared distances of two loaded blocks whose entries are those of two clouds `x`, `y` at batch `b`,
    the tile's row `r` being the cloud's point `n`: the three sums over the coordinates agree term by term. -/
theorem blkD2_of (x0 : Vec Ideal S1x512x3 .f32) (y0 : Vec Ideal S1x3x4096 .f32) (x y : Chamfer.Cloud) (b : Fin 8)
    (n : Fin 4096) (r : Fin 512) (mm : Fin 4096)
    (hx : ∀ d : Fin 3, x0 (ix3 0 r d) = x b n d) (hy : ∀ d : Fin 3, y0 (ix3 0 d mm) = y b mm d) :
    blkD2 x0 y0 r mm = Chamfer.d2 x y b n mm := by
  unfold blkD2 Chamfer.d2 Chamfer.sq Chamfer.dot
  simp only [hx, hy]

/-- The body's squared distances at a point are the batch's, at the tile's rows. -/
theorem blkD2_eq (c : Dev nD) (t : Fin cfg0.N) (r : Fin 512) (mm : Fin 4096) :
    blkD2 (iblk m c 0 t) (iblk m c 1 t) r mm = Chamfer.d2 (X m c) (Y m c) (bOf t) (rowOf t r) mm :=
  blkD2_of (iblk m c 0 t) (iblk m c 1 t) (X m c) (Y m c) (bOf t) (rowOf t r) r mm
    (fun d => xblk_apply m c t r d) (fun d => yblk_apply m c t d mm)

/-! ## The first output: the tile's row minima -/

/-- The row minima of the block at a point are the directed minima towards `y` of the tile's points: the same fold of
    `min` from +∞ over the 4096 points of `y`, of the same squared distances. -/
theorem pay2_toY (c : Dev nD) (t : Fin cfg0.N) (r : Fin 512) :
    k0_pay2 (F := Ideal) (iblk m c 0 t) (iblk m c 1 t) (ix3 0 r 0) = Chamfer.toY (X m c) (Y m c) (bOf t) (rowOf t r) :=
  (pay2_apply (iblk m c 0 t) (iblk m c 1 t) r).trans (Finset.fold_congr fun mm _ => blkD2_eq m c t r mm)

/-- After the body at any point the first output's buffer holds the tile's rows' minima over all of `y`. -/
theorem out2_at (c : Dev nD) (t : Fin cfg0.N) (r : Fin 512) :
    ((outsAt0 m c t.val t.isLt).1 : Vec Ideal S1x512x1 .f32) (ix3 0 r 0) = Chamfer.toY (X m c) (Y m c) (bOf t) (rowOf t r) := by
  by_cases h0 : t.val % 8 = 0
  · rw [outsAt0_A m c t h0]
    unfold atA; dsimp only
    refine (congrFun (out0_A_2_eq (F := Ideal) c (grid0.coords t) (ms0_0 t) (hs0_0 t) (ms0_1 t) (hs0_1 t) (ms0_2 t) (hs0_2 t)
      (ms0_3 t) (hs0_3 t) scM0_0 (Memref.isWhole_whole _) (cA0 t h0) (cA1 t h0) (cA2 t h0) (iblk m c 0 t) (iblk m c 1 t))
      (ix3 0 r 0)).trans ?_
    exact pay2_toY m c t r
  · by_cases h7 : t.val % 8 = 7
    · rw [outsAt0_C m c t h0 h7]
      unfold atC; dsimp only
      refine (congrFun (out0_C_2_eq (F := Ideal) c (grid0.coords t) (ms0_0 t) (hs0_0 t) (ms0_1 t) (hs0_1 t) (ms0_2 t) (hs0_2 t)
        (ms0_3 t) (hs0_3 t) scM0_0 (Memref.isWhole_whole _) (cB0 t h0) (cB1 t h0) (cC2 t h7) (iblk m c 0 t) (iblk m c 1 t)
        (outsAt0 m c (t.val - 1) (Nat.lt_of_le_of_lt (Nat.sub_le _ _) t.isLt)).2.2) (ix3 0 r 0)).trans ?_
      exact pay2_toY m c t r
    · rw [outsAt0_B m c t h0 h7]
      unfold atB; dsimp only
      refine (congrFun (out0_B_2_eq (F := Ideal) c (grid0.coords t) (ms0_0 t) (hs0_0 t) (ms0_1 t) (hs0_1 t) (ms0_2 t) (hs0_2 t)
        (ms0_3 t) (hs0_3 t) scM0_0 (Memref.isWhole_whole _) (cB0 t h0) (cB1 t h0) (cB2 t h7) (iblk m c 0 t) (iblk m c 1 t)
        (outsAt0 m c (t.val - 1) (Nat.lt_of_le_of_lt (Nat.sub_le _ _) t.isLt)).2.2) (ix3 0 r 0)).trans ?_
      exact pay2_toY m c t r

/-! ## The scratch: the running minimum over the batch's tiles -/

/-- The column minima of the block at a point are the minimum, over the tile's 512 points of `x`, of the batch's
    squared distances to the `y` point: tile `t mod 8`'s minimum of the column function. -/
theorem pay3_tile (c : Dev nD) (t : Fin cfg0.N) (mm : Fin 4096) :
    k0_pay3 (F := Ideal) (iblk m c 0 t) (iblk m c 1 t) (ix2 0 mm)
      = Chamfer.tileMin (fun p => Chamfer.d2 (X m c) (Y m c) (bOf t) p mm) (t.val % 8) :=
  (pay3_apply (iblk m c 0 t) (iblk m c 1 t) mm).trans
    ((Finset.fold_congr fun r _ => blkD2_eq m c t r mm).trans
      (Chamfer.tileMin_eq (fun p => Chamfer.d2 (X m c) (Y m c) (bOf t) p mm) ⟨t.val % 8, Nat.mod_lt _ (by norm_num)⟩
        (fun r => Chamfer.d2 (X m c) (Y m c) (bOf t) (rowOf t r) mm) (fun r => rfl)).symm)

/-- At a batch's first tile the scratch is overwritten with the tile's column minima: the running minimum's first term. -/
theorem scr_first (c : Dev nD) (t : Fin cfg0.N) (h0 : t.val % 8 = 0) (mm : Fin 4096) :
    ((outsAt0 m c t.val t.isLt).2.2 : Vec Ideal S1x4096 .f32) (ix2 0 mm)
      = Chamfer.runMin (fun p => Chamfer.d2 (X m c) (Y m c) (bOf t) p mm) (t.val % 8) := by
  rw [outsAt0_A m c t h0]
  unfold atA; dsimp only
  refine (congrFun (sout0_A_0_eq (F := Ideal) c (grid0.coords t) (ms0_0 t) (hs0_0 t) (ms0_1 t) (hs0_1 t) (ms0_2 t) (hs0_2 t)
    (ms0_3 t) (hs0_3 t) scM0_0 (Memref.isWhole_whole _) (cA0 t h0) (cA1 t h0) (cA2 t h0) (iblk m c 0 t) (iblk m c 1 t))
    (ix2 0 mm)).trans ?_
  refine (pay4_apply (iblk m c 0 t) (iblk m c 1 t) mm).trans ?_
  refine (pay3_tile m c t mm).trans ?_
  rw [h0]
  exact (Chamfer.runMin_zero _).symm

/-- At a later tile the body keeps the smaller of what the scratch held and the tile's column minima: if the scratch
    held the running minimum up to the tile before, it now holds the running minimum up to this tile. -/
theorem scr_step (c : Dev nD) (t : Fin cfg0.N) (h0 : ¬ t.val % 8 = 0) (xs : Vec Ideal S1x4096 .f32) (mm : Fin 4096)
    (ih : xs (ix2 0 mm) = Chamfer.runMin (fun p => Chamfer.d2 (X m c) (Y m c) (bOf t) p mm) (t.val % 8 - 1)) :
    k0_pay5 (F := Ideal) (iblk m c 0 t) (iblk m c 1 t) xs (ix2 0 mm)
      = Chamfer.runMin (fun p => Chamfer.d2 (X m c) (Y m c) (bOf t) p mm) (t.val % 8) := by
  refine (pay5_apply (iblk m c 0 t) (iblk m c 1 t) xs mm).trans ?_
  refine (congrArg₂ min ih (pay3_tile m c t mm)).trans ?_
  generalize t.val % 8 = j at h0
  cases j with
  | zero => exact absurd rfl h0
  | succ k => exact (Chamfer.runMin_succ _ k).symm

/-- The scratch after the body at point number `n`, by induction on `n`: the point before a later tile is the tile
    before in the same batch (`(n − 1) / 8 = n / 8` and `(n − 1) mod 8 = n mod 8 − 1` when `n mod 8 ≠ 0`). -/
theorem scr_nat (c : Dev nD) : ∀ (n : ℕ) (t : Fin cfg0.N), t.val = n → ∀ mm : Fin 4096,
    ((outsAt0 m c t.val t.isLt).2.2 : Vec Ideal S1x4096 .f32) (ix2 0 mm)
      = Chamfer.runMin (fun p => Chamfer.d2 (X m c) (Y m c) (bOf t) p mm) (t.val % 8)
  | 0, t, ht, mm => scr_first m c t (by rw [ht]) mm
  | n + 1, t, ht, mm => by
    by_cases h0 : t.val % 8 = 0
    · exact scr_first m c t h0 mm
    · have hlt : t.val - 1 < cfg0.N := Nat.lt_of_le_of_lt (Nat.sub_le _ _) t.isLt
      have hb : bOf ⟨t.val - 1, hlt⟩ = bOf t := Fin.ext (by show (t.val - 1) / 8 = t.val / 8; omega)
      have hm : (t.val - 1) % 8 = t.val % 8 - 1 := by omega
      have ih : ((outsAt0 m c (t.val - 1) hlt).2.2 : Vec Ideal S1x4096 .f32) (ix2 0 mm)
          = Chamfer.runMin (fun p => Chamfer.d2 (X m c) (Y m c) (bOf t) p mm) (t.val % 8 - 1) :=
        (scr_nat c n ⟨t.val - 1, hlt⟩ (by show t.val - 1 = n; omega) mm).trans (by
          rw [hb]; exact congrArg _ hm)
      by_cases h7 : t.val % 8 = 7
      · rw [outsAt0_C m c t h0 h7]
        unfold atC; dsimp only
        refine (congrFun (sout0_C_0_eq (F := Ideal) c (grid0.coords t) (ms0_0 t) (hs0_0 t) (ms0_1 t) (hs0_1 t) (ms0_2 t) (hs0_2 t)
          (ms0_3 t) (hs0_3 t) scM0_0 (Memref.isWhole_whole _) (cB0 t h0) (cB1 t h0) (cC2 t h7) (iblk m c 0 t) (iblk m c 1 t)
          (outsAt0 m c (t.val - 1) hlt).2.2) (ix2 0 mm)).trans ?_
        exact scr_step m c t h0 _ mm ih
      · rw [outsAt0_B m c t h0 h7]
        unfold atB; dsimp only
        refine (congrFun (sout0_B_0_eq (F := Ideal) c (grid0.coords t) (ms0_0 t) (hs0_0 t) (ms0_1 t) (hs0_1 t) (ms0_2 t) (hs0_2 t)
          (ms0_3 t) (hs0_3 t) scM0_0 (Memref.isWhole_whole _) (cB0 t h0) (cB1 t h0) (cB2 t h7) (iblk m c 0 t) (iblk m c 1 t)
          (outsAt0 m c (t.val - 1) hlt).2.2) (ix2 0 mm)).trans ?_
        exact scr_step m c t h0 _ mm ih

/-- After the body at any point the scratch holds the running minimum over the batch's tiles up to this one. -/
theorem scr_at (c : Dev nD) (t : Fin cfg0.N) (mm : Fin 4096) :
    ((outsAt0 m c t.val t.isLt).2.2 : Vec Ideal S1x4096 .f32) (ix2 0 mm)
      = Chamfer.runMin (fun n => Chamfer.d2 (X m c) (Y m c) (bOf t) n mm) (t.val % 8) :=
  scr_nat m c t.val t rfl mm

/-! ## The second output: the minimum over all of `x` -/

/-- After the body at a batch's last tile the second output's buffer holds each `y` point's minimum over all of `x`. -/
theorem out3_at (c : Dev nD) (t : Fin cfg0.N) (h7 : t.val % 8 = 7) (mm : Fin 4096) :
    ((outsAt0 m c t.val t.isLt).2.1 : Vec Ideal S1x1x4096 .f32) (ix3 0 0 mm) = Chamfer.toX (X m c) (Y m c) (bOf t) mm := by
  have h0 : ¬ t.val % 8 = 0 := by omega
  have hlt : t.val - 1 < cfg0.N := Nat.lt_of_le_of_lt (Nat.sub_le _ _) t.isLt
  have hs := scr_at m c t mm
  rw [outsAt0_C m c t h0 h7] at hs ⊢
  unfold atC at hs ⊢; dsimp only at hs ⊢
  refine (congrFun (out0_C_3_eq (F := Ideal) c (grid0.coords t) (ms0_0 t) (hs0_0 t) (ms0_1 t) (hs0_1 t) (ms0_2 t) (hs0_2 t)
    (ms0_3 t) (hs0_3 t) scM0_0 (Memref.isWhole_whole _) (cB0 t h0) (cB1 t h0) (cC2 t h7) (iblk m c 0 t) (iblk m c 1 t)
    (outsAt0 m c (t.val - 1) hlt).2.2) (ix3 0 0 mm)).trans ?_
  refine (pay6_apply _ mm).trans ?_
  refine (congrFun (sout0_C_0_eq (F := Ideal) c (grid0.coords t) (ms0_0 t) (hs0_0 t) (ms0_1 t) (hs0_1 t) (ms0_2 t) (hs0_2 t)
    (ms0_3 t) (hs0_3 t) scM0_0 (Memref.isWhole_whole _) (cB0 t h0) (cB1 t h0) (cC2 t h7) (iblk m c 0 t) (iblk m c 1 t)
    (outsAt0 m c (t.val - 1) hlt).2.2) (ix2 0 mm)).symm.trans ?_
  refine hs.trans ?_
  rw [h7]
  exact Chamfer.runMin_seven _

end Cert.KernelIdeal.Hand

end
-- ==== Proof.KiArrays.lean ====
/-
  From blocks to arrays. The first output's array [8, 4096, 1] is written back at every point, block (batch, tile, 0):
  the 64 blocks tile it, so it ends holding each `x` point's least squared distance to `y`. The second output's array
  [8, 1, 4096] is written back at each batch's last tile only, block (batch, 0, 0): those eight blocks tile it, so it
  ends holding each `y` point's least squared distance to `x`.
-/
import proofs.«140159_j10625749090595_1_alg».proof.Proof.KiValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## Which block each point writes back -/

/-- The first output's block at point `t` is block (t / 8, t % 8, 0): one block of 512 rows per tile. -/
theorem oidx2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, win0_2.index t (0 : Fin 3) = t.val / 8 ∧ win0_2.index t (1 : Fin 3) = t.val % 8
    ∧ win0_2.index t (2 : Fin 3) = 0)

/-- The second output's block at point `t` is block (t / 8, 0, 0): one block per batch, the same at all its tiles. -/
theorem oidx3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-! ## The first output: every point writes its tile's rows -/

/-- What the first output's array ends holding, as one function of its index: at (b, n, 0) the least squared
    distance from point n of batch b of `x` to the points of `y`. -/
def G2 (c : Dev nD) : S8x4096x1.Idx → EReal := fun i => Chamfer.toY (X m c) (Y m c) (i 0) (i 1)

/-- What point `t` writes back is its block of that function: row r of the block is row 512·(t % 8) + r of batch
    t / 8, and after the body the buffer holds that row's minimum. -/
theorem flushed2_eq (c : Dev nD) (t : Fin cfg0.N) :
    (dats m 0 c).flushed 2 t = ((cfg0.win 2).blk t).view.read (Elt Ideal) (G2 m c) := by
  obtain ⟨e0, e1, e2⟩ := oidx2 t
  show (cfg0.win 2).cut (grid0.coords t) ((dats m 0 c).after 2 t) = _
  rw [after0_2]
  funext y
  have y0 : (y 0).val = 0 := by have h : (y 0).val < 1 := (y 0).isLt; omega
  have y2 : (y 2).val = 0 := by have h : (y 2).val < 1 := (y 2).isLt; omega
  obtain ⟨r, rfl⟩ : ∃ r : Fin 512, y = (ix3 (0 : Fin 1) r (0 : Fin 1) : S1x512x1.Idx) :=
    ⟨⟨(y 1).val, (y 1).isLt⟩, funext fun a => Fin.ext (by
      match a with
      | ⟨0, _⟩ => exact y0
      | ⟨1, _⟩ => rfl
      | ⟨2, _⟩ => exact y2)⟩
  show ((outsAt0 m c t.val t.isLt).1 : Vec Ideal S1x512x1 .f32) (ix3 0 r 0)
    = G2 m c (((cfg0.win 2).blk t).view.emb (ix3 (0 : Fin 1) r (0 : Fin 1)))
  rw [out2_at m c t r]
  have h0 : (((cfg0.win 2).blk t).view.emb (ix3 (0 : Fin 1) r (0 : Fin 1)) : S8x4096x1.Idx) 0 = bOf t :=
    Fin.ext (by show win0_2.index t (0 : Fin 3) * 1 + 1 * 0 = t.val / 8; omega)
  have h1 : (((cfg0.win 2).blk t).view.emb (ix3 (0 : Fin 1) r (0 : Fin 1)) : S8x4096x1.Idx) 1 = rowOf t r :=
    Fin.ext (by show win0_2.index t (1 : Fin 3) * 512 + 1 * r.val = 512 * (t.val % 8) + r.val; omega)
  show _ = Chamfer.toY (X m c) (Y m c)
    ((((cfg0.win 2).blk t).view.emb (ix3 (0 : Fin 1) r (0 : Fin 1)) : S8x4096x1.Idx) 0)
    ((((cfg0.win 2).blk t).view.emb (ix3 (0 : Fin 1) r (0 : Fin 1)) : S8x4096x1.Idx) 1)
  rw [h0, h1]

/-- An index of the array is in point `t`'s block iff each coordinate is in the block's range on its axis. -/
theorem mem_blk2 (t : Fin cfg0.N) (i : S8x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_0).slice (win0_2.rect t)).set ↔ _
  rw [View.set_slice_whole, Rect.mem_set_unit]
  exact Iff.rfl

/-- The 64 blocks tile the array — index (b, n, 0) lies in the block of point 8·b + n / 512 — so the array ends
    holding the function. -/
theorem final2 (c : Dev nD) : (dats m 0 c).arrAt 2 cfg0.N = G2 m c :=
  (dats m 0 c).arrAt_eq_of_cover 2 (G2 m c) (fun t _ => flushed2_eq m c t) fun i => by
    have hi0 : (i 0).val < 8 := (i 0).isLt
    have hi1 : (i 1).val < 4096 := (i 1).isLt
    have hi2 : (i 2).val < 1 := (i 2).isLt
    have hN : cfg0.N = 64 := N64
    obtain ⟨t, ht⟩ : ∃ t : Fin cfg0.N, t.val = 8 * (i 0).val + (i 1).val / 512 := ⟨⟨_, by omega⟩, rfl⟩
    obtain ⟨e0, e1, e2⟩ := oidx2 t
    refine ⟨t, flush0_2 t, ?_⟩
    rw [mem_blk2]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 512 ≤ (i 1).val ∧ (i 1).val < win0_2.index t (1 : Fin 3) * 512 + 512
      omega
    | ⟨2, _⟩ =>
      show win0_2.index t (2 : Fin 3) * 1 ≤ (i 2).val ∧ (i 2).val < win0_2.index t (2 : Fin 3) * 1 + 1
      omega

theorem final2_apply (c : Dev nD) (b : Fin 8) (n : Fin 4096) :
    ((dats m 0 c).arrAt 2 cfg0.N : S8x4096x1.Idx → EReal) (ix3 b n 0) = Chamfer.toY (X m c) (Y m c) b n :=
  congrFun (final2 m c) (ix3 b n 0)

/-! ## The second output: each batch's last tile writes the batch's row -/

/-- What the second output's array ends holding: at (b, 0, m) the least squared distance from point m of batch b
    of `y` to the points of `x`. -/
def G3 (c : Dev nD) : S8x1x4096.Idx → EReal := fun i => Chamfer.toX (X m c) (Y m c) (i 0) (i 2)

/-- A point that writes the second output back is a batch's last tile, where the buffer holds the minima over all
    4096 points of `x`; its block is the whole row of batch t / 8. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  obtain ⟨e0, e1, e2⟩ := oidx3 t
  show (cfg0.win 3).cut (grid0.coords t) ((dats m 0 c).after 3 t) = _
  rw [after0_3]
  funext y
  have y0 : (y 0).val = 0 := by have h : (y 0).val < 1 := (y 0).isLt; omega
  have y1 : (y 1).val = 0 := by have h : (y 1).val < 1 := (y 1).isLt; omega
  obtain ⟨mm, rfl⟩ : ∃ mm : Fin 4096, y = (ix3 (0 : Fin 1) (0 : Fin 1) mm : S1x1x4096.Idx) :=
    ⟨⟨(y 2).val, (y 2).isLt⟩, funext fun a => Fin.ext (by
      match a with
      | ⟨0, _⟩ => exact y0
      | ⟨1, _⟩ => exact y1
      | ⟨2, _⟩ => rfl)⟩
  show ((outsAt0 m c t.val t.isLt).2.1 : Vec Ideal S1x1x4096 .f32) (ix3 0 0 mm)
    = G3 m c (((cfg0.win 3).blk t).view.emb (ix3 (0 : Fin 1) (0 : Fin 1) mm))
  rw [out3_at m c t h7 mm]
  have h0 : (((cfg0.win 3).blk t).view.emb (ix3 (0 : Fin 1) (0 : Fin 1) mm) : S8x1x4096.Idx) 0 = bOf t :=
    Fin.ext (by show win0_3.index t (0 : Fin 3) * 1 + 1 * 0 = t.val / 8; omega)
  have h2 : (((cfg0.win 3).blk t).view.emb (ix3 (0 : Fin 1) (0 : Fin 1) mm) : S8x1x4096.Idx) 2 = mm :=
    Fin.ext (by show win0_3.index t (2 : Fin 3) * 4096 + 1 * mm.val = mm.val; omega)
  show _ = Chamfer.toX (X m c) (Y m c)
    ((((cfg0.win 3).blk t).view.emb (ix3 (0 : Fin 1) (0 : Fin 1) mm) : S8x1x4096.Idx) 0)
    ((((cfg0.win 3).blk t).view.emb (ix3 (0 : Fin 1) (0 : Fin 1) mm) : S8x1x4096.Idx) 2)
  rw [h0, h2]

/-- An index of the array is in point `t`'s block iff each coordinate is in the block's range on its axis. -/
theorem mem_blk3 (t : Fin cfg0.N) (i : S8x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The eight blocks written back tile the array — index (b, 0, m) lies in the block of point 8·b + 7, batch b's
    last tile — so the array ends holding the function. -/
theorem final3 (c : Dev nD) : (dats m 0 c).arrAt 3 cfg0.N = G3 m c :=
  (dats m 0 c).arrAt_eq_of_cover 3 (G3 m c) (flushed3_eq m c) fun i => by
    have hi0 : (i 0).val < 8 := (i 0).isLt
    have hi1 : (i 1).val < 1 := (i 1).isLt
    have hi2 : (i 2).val < 4096 := (i 2).isLt
    have hN : cfg0.N = 64 := N64
    obtain ⟨t, ht⟩ : ∃ t : Fin cfg0.N, t.val = 8 * (i 0).val + 7 := ⟨⟨_, by omega⟩, rfl⟩
    obtain ⟨e0, e1, e2⟩ := oidx3 t
    refine ⟨t, (flush0_3 t).mpr (by omega), ?_⟩
    rw [mem_blk3]
    intro a
    match a with
    | ⟨0, _⟩ =>
      show win0_3.index t (0 : Fin 3) * 1 ≤ (i 0).val ∧ (i 0).val < win0_3.index t (0 : Fin 3) * 1 + 1
      omega
    | ⟨1, _⟩ =>
      show win0_3.index t (1 : Fin 3) * 1 ≤ (i 1).val ∧ (i 1).val < win0_3.index t (1 : Fin 3) * 1 + 1
      omega
    | ⟨2, _⟩ =>
      show win0_3.index t (2 : Fin 3) * 4096 ≤ (i 2).val ∧ (i 2).val < win0_3.index t (2 : Fin 3) * 4096 + 4096
      omega

theorem final3_apply (c : Dev nD) (b : Fin 8) (mm : Fin 4096) :
    ((dats m 0 c).arrAt 3 cfg0.N : S8x1x4096.Idx → EReal) (ix3 b 0 mm) = Chamfer.toX (X m c) (Y m c) b mm :=
  congrFun (final3 m c) (ix3 b 0 mm)

end Cert.KernelIdeal.Hand

end
-- ==== Proof.TailFn.lean ====
/-
  The host computation that follows the distance kernel, as one function of the two arrays of directed minima.

  For an array `v` of 8 rows of 4096 values: the row mean `m = (Σ v) / 4096`, the centred values `v − m`, the
  sample variance `(Σ (v − m)²) / (4096 − 1)` (kept only when `4096 − 1 > 0`, else the not-a-number word), its square
  root `σ`, the mask of the entries with `v − m > (−1/2)·σ`, the number of masked entries and their sum (the others
  counted as 0); the masked mean of the row is that sum over that number. The result of the whole computation is
  `(Σ_b (mmean a b + mmean b' b)) / 8` over the 8 rows of the two arrays.

  Every constant is kept as the f32 word that spells it (0, 4096, −1/2, 8, the not-a-number word) and every
  operation is the one the program names, composed in the program's order: nothing here is evaluated, so that two
  programs that run these operations on equal arrays give this same term.

  The two arrays reach this computation through a change of shape only: [8, 4096, 1] and [8, 1, 4096] read as
  [8, 4096] (`ry`, `rx`), the entry at (b, n) being the entry at (b, n, 0), respectively (b, 0, n).
-/
import proofs.«140159_j10625749090595_1_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem
  Idealize.ShloMosaic.StableHlo

/-! ## The masked mean of each row -/

/-- The sum of each row: the 4096 values of row `b` added up from the word 0. -/
def rowSum (v : FVec Ideal S8x4096 .f32) : FVec Ideal S8 .f32 :=
  Host.reduceAdd (F := Ideal) v (constant (F := Ideal) S_ .f32 0x00000000#32) reducesTo_S8x4096_S8_d1 h_S_

/-- The mean of each row, as a column: the row sum over 4096. -/
def mean (v : FVec Ideal S8x4096 .f32) : FVec Ideal S8x1 .f32 :=
  Host.divf (F := Ideal) (broadcastInDim S8x1 ![0] bcast_S8_S8x1_0 (rowSum v))
    (broadcastInDim S8x1 ![] bcast_S_S8x1 (constant (F := Ideal) S_ .f32 0x45800000#32))

/-- The values with their row's mean subtracted. -/
def centered (v : FVec Ideal S8x4096 .f32) : FVec Ideal S8x4096 .f32 :=
  subf (F := Ideal) v (broadcastInDim S8x4096 ![0, 1] bcast_S8x1_S8x4096_0_1 (mean v))

/-- The divisor of the sample variance: 4096 less the one degree of freedom the mean takes. -/
def dof : FVec Ideal S_ .f32 :=
  subf (F := Ideal) (constant (F := Ideal) S_ .f32 0x45800000#32) (sitofp (F := Ideal) .f32 (constantI S_ 32 1#32))

/-- The sample variance of each row, as a column: the sum of the squared centred values over `dof`, where
    `dof > 0`; the not-a-number word otherwise. -/
def variance (v : FVec Ideal S8x4096 .f32) : FVec Ideal S8x1 .f32 :=
  select (broadcastInDim S8x1 ![] bcast_S_S8x1 (cmpf (F := Ideal) .ogt dof (constant (F := Ideal) S_ .f32 0x00000000#32)))
    (Host.divf (F := Ideal) (broadcastInDim S8x1 ![0] bcast_S8_S8x1_0 (rowSum (mulf (F := Ideal) (centered v) (centered v))))
      (broadcastInDim S8x1 ![] bcast_S_S8x1 dof))
    (broadcastInDim S8x1 ![] bcast_S_S8x1 (constant (F := Ideal) S_ .f32 0x7FC00000#32))

/-- The standard deviation of each row: the square root of the variance. -/
def std (v : FVec Ideal S8x4096 .f32) : FVec Ideal S8x1 .f32 :=
  Host.sqrt (F := Ideal) (variance v)

/-- The entries kept: those whose centred value exceeds `(−1/2)·σ` of their row. -/
def mask (v : FVec Ideal S8x4096 .f32) : IVec S8x4096 1 :=
  cmpf (F := Ideal) .ogt (centered v)
    (broadcastInDim S8x4096 ![0, 1] bcast_S8x1_S8x4096_0_1
      (mulf (F := Ideal) (broadcastInDim S8x1 ![] bcast_S_S8x1 (constant (F := Ideal) S_ .f32 0xBF000000#32)) (std v)))

/-- How many entries of each row are kept, as a float: the mask's bits widened to 32-bit integers and added up. -/
def count (v : FVec Ideal S8x4096 .f32) : FVec Ideal S8 .f32 :=
  sitofp (F := Ideal) .f32
    (Host.reduce IntOp.addi (extui 32 (mask v) natLt_1_32) (constantI S_ 32 0#32) reducesTo_S8x4096_S8_d1 h_S_)

/-- The sum of the kept entries of each row: the row sum of `v` with 0 at the entries not kept. -/
def maskedSum (v : FVec Ideal S8x4096 .f32) : FVec Ideal S8 .f32 :=
  rowSum (select (mask v) v (broadcastInDim S8x4096 ![] bcast_S_S8x4096 (constant (F := Ideal) S_ .f32 0x00000000#32)))

/-- The masked mean of each row: the sum of the kept entries over their number. -/
def mmean (v : FVec Ideal S8x4096 .f32) : FVec Ideal S8 .f32 :=
  Host.divf (F := Ideal) (maskedSum v) (count v)

/-! ## The whole tail -/

/-- The two masked means added row by row, summed over the 8 rows from the word 0, over 8. -/
def tailFn (a b : FVec Ideal S8x4096 .f32) : FVec Ideal S_ .f32 :=
  Host.divf (F := Ideal)
    (Host.reduceAdd (F := Ideal) (addf (F := Ideal) (mmean a) (mmean b)) (constant (F := Ideal) S_ .f32 0x00000000#32)
      reducesTo_S8_S_d0 h_S_)
    (constant (F := Ideal) S_ .f32 0x41000000#32)

/-! ## The two changes of shape -/

/-- An [8, 4096, 1] array read as [8, 4096]: the same values in row-major order. -/
def ry (A : FVec Ideal S8x4096x1 .f32) : FVec Ideal S8x4096 .f32 :=
  shapeCast S8x4096 A shapeCasts_S8x4096x1_S8x4096

/-- An [8, 1, 4096] array read as [8, 4096]: the same values in row-major order. -/
def rx (A : FVec Ideal S8x1x4096 .f32) : FVec Ideal S8x4096 .f32 :=
  shapeCast S8x4096 A shapeCasts_S8x1x4096_S8x4096

/-- Entry (b, n) of the reshaped array is entry (b, n, 0): both sit at row-major position `4096·b + n`. -/
theorem ry_apply (A : FVec Ideal S8x4096x1 .f32) (b : Fin 8) (n : Fin 4096) :
    ry A (ValueIdx.ix2 b n) = A (ValueIdx.ix3 b n 0) :=
  shapeCast_apply A shapeCasts_S8x4096x1_S8x4096 _ _ (by
    rw [Shape.rowMajor_val_three, Shape.rowMajor_val_two]
    show (b.val * 4096 + n.val) * 1 + 0 = b.val * 4096 + n.val
    omega)

/-- Entry (b, m) of the reshaped array is entry (b, 0, m): both sit at row-major position `4096·b + m`. -/
theorem rx_apply (A : FVec Ideal S8x1x4096 .f32) (b : Fin 8) (mm : Fin 4096) :
    rx A (ValueIdx.ix2 b mm) = A (ValueIdx.ix3 b 0 mm) :=
  shapeCast_apply A shapeCasts_S8x1x4096_S8x4096 _ _ (by
    rw [Shape.rowMajor_val_three, Shape.rowMajor_val_two]
    show (b.val * 1 + 0) * 4096 + mm.val = b.val * 4096 + mm.val
    omega)

/-! ## The program's tail is that function -/

attribute [local irreducible] Host.reduce Host.reduceAdd in
set_option maxRecDepth 16384 in
set_option maxHeartbeats 2000000 in
/-- The 103 host operations after the kernel, run in order from any contents `V`, leave in the result buffer
    `tailFn` of the kernel's two outputs reshaped: unrolled, each operation's result is its function at the
    contents of its operands, every operand was written once by an earlier operation of the list or is one of the
    two kernel outputs, and the composed term is `tailFn`'s, operation for operation (the two sums over rows and
    the integer count kept folded: the equation never looks inside them). -/
theorem kernel_tail (V : Valuation τ sig (Elt Ideal)) :
    after (List.flatten [hostOps1 (F := Ideal), hostOps1_1, hostOps1_2, hostOps1_3, hostOps1_4, hostOps1_5, hostOps1_6, hostOps1_7, hostOps1_8]) V (main_v40 : DevRef τ sig)
      = tailFn (ry (V (main_v1_0 : DevRef τ sig))) (rx (V (main_v1_1 : DevRef τ sig))) := by
  simp only [hostOps1, hostOps1_1, hostOps1_2, hostOps1_3, hostOps1_4, hostOps1_5, hostOps1_6, hostOps1_7, hostOps1_8,
    List.flatten_cons, List.flatten_nil, List.append_nil, List.cons_append, List.nil_append]
  simp only [after_cons, after_nil]
  rfl

/-- None of those operations writes the second argument's buffer: it holds afterwards what it held before. -/
theorem kernel_tail_arg1 (V : Valuation τ sig (Elt Ideal)) :
    after (List.flatten [hostOps1 (F := Ideal), hostOps1_1, hostOps1_2, hostOps1_3, hostOps1_4, hostOps1_5, hostOps1_6, hostOps1_7, hostOps1_8]) V (main_arg1 : DevRef τ sig) = V (main_arg1 : DevRef τ sig) := by
  simp only [hostOps1, hostOps1_1, hostOps1_2, hostOps1_3, hostOps1_4, hostOps1_5, hostOps1_6, hostOps1_7, hostOps1_8,
    List.flatten_cons, List.flatten_nil, List.append_nil, List.cons_append, List.nil_append]
  simp only [after_cons, after_nil]
  rfl

end Cert.KernelIdeal.Hand

end
-- ==== Proof.OutVal.lean ====
/-
  The value both programs end with, as one term: the shared host tail applied to the two arrays of directed minima —
  for each point of `x` its least squared distance to `y`, for each point of `y` its least squared distance to `x`.
-/
import proofs.«140159_j10625749090595_1_alg».proof.Proof.TailFn
import proofs.«140159_j10625749090595_1_alg».proof.Proof.ChamferSpec

noncomputable section

namespace Cert.KernelIdeal.Hand

open Cert.KernelIdeal Idealize.ShloMosaic

/-- The array of each `x` point's least squared distance to a point of `y`. -/
def toYArr (x y : FVec Ideal S8x4096x3 .f32) : FVec Ideal S8x4096 .f32 :=
  fun i => Chamfer.toY (Chamfer.cloud x) (Chamfer.cloud y) (i 0) (i 1)
/-- The array of each `y` point's least squared distance to a point of `x`. -/
def toXArr (x y : FVec Ideal S8x4096x3 .f32) : FVec Ideal S8x4096 .f32 :=
  fun i => Chamfer.toX (Chamfer.cloud x) (Chamfer.cloud y) (i 0) (i 1)
/-- The scalar both programs return. -/
def outVal (x y : FVec Ideal S8x4096x3 .f32) : FVec Ideal S_ .f32 := tailFn (toYArr x y) (toXArr x y)

theorem toYArr_apply (x y : FVec Ideal S8x4096x3 .f32) (b : Fin 8) (n : Fin 4096) :
    toYArr x y (ValueIdx.ix2 b n) = Chamfer.toY (Chamfer.cloud x) (Chamfer.cloud y) b n := rfl
theorem toXArr_apply (x y : FVec Ideal S8x4096x3 .f32) (b : Fin 8) (mm : Fin 4096) :
    toXArr x y (ValueIdx.ix2 b mm) = Chamfer.toX (Chamfer.cloud x) (Chamfer.cloud y) b mm := rfl

end Cert.KernelIdeal.Hand

end
-- ==== Proof.KiOut.lean ====
/-
  The idealized kernel program's run with its result named: the region leaves the two arrays of directed minima
  (`final2_apply`, `final3_apply`), the host lines after it reshape them and apply the shared tail, and both arguments end
  as launched.
-/
import proofs.«140159_j10625749090595_1_alg».proof.Proof.KiArrays
import proofs.«140159_j10625749090595_1_alg».proof.Proof.OutVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The contents the host lines after the region start from: the region's four arrays as the pipeline's proof data
    leave them, every other buffer as the region found it. -/
abbrev afterRegion (c : Dev nD) : Valuation τ sig (Elt Ideal) :=
  Pipeline.withArrays spec0 c (V0 m c) fun w => (dats m 0 c).arrAt w cfg0.N

/-- The first output's buffer [8, 4096, 1], read as [8, 4096], is the array of each `x` point's least squared
    distance to `y`: entry (b, n) of the reshaped array is entry (b, n, 0) of the buffer, the buffer is the third of the
    region's arrays, and that array holds `toY` of the two launched clouds at (b, n). -/
theorem ry_afterRegion (c : Dev nD) :
    ry (afterRegion m c (main_v1_0 : DevRef τ sig))
      = toYArr (m ((c.tc : Thread nD τ).loc main_arg0)) (m ((c.tc : Thread nD τ).loc main_arg1)) := by
  have e : (afterRegion m c (main_v1_0 : DevRef τ sig) : S8x4096x1.Idx → EReal)
      = ((dats m 0 c).arrAt 2 cfg0.N : S8x4096x1.Idx → EReal) :=
    Pipeline.withArrays_arr spec0 winFacts0.arr_inj c _ _ 2
  funext i
  obtain ⟨b, n, rfl⟩ : ∃ (b : Fin 8) (n : Fin 4096), i = ix2 b n := ⟨i 0, i 1, eq_ix2 i⟩
  rw [ry_apply, toYArr_apply]
  exact (congrFun e (ix3 b n 0)).trans (final2_apply m c b n)

/-- The second output's buffer [8, 1, 4096], read as [8, 4096], is the array of each `y` point's least squared
    distance to `x`: entry (b, mm) of the reshaped array is entry (b, 0, mm) of the buffer, the fourth of the region's
    arrays, which holds `toX` of the two launched clouds at (b, mm). -/
theorem rx_afterRegion (c : Dev nD) :
    rx (afterRegion m c (main_v1_1 : DevRef τ sig))
      = toXArr (m ((c.tc : Thread nD τ).loc main_arg0)) (m ((c.tc : Thread nD τ).loc main_arg1)) := by
  have e : (afterRegion m c (main_v1_1 : DevRef τ sig) : S8x1x4096.Idx → EReal)
      = ((dats m 0 c).arrAt 3 cfg0.N : S8x1x4096.Idx → EReal) :=
    Pipeline.withArrays_arr spec0 winFacts0.arr_inj c _ _ 3
  funext i
  obtain ⟨b, mm, rfl⟩ : ∃ (b : Fin 8) (mm : Fin 4096), i = ix2 b mm := ⟨i 0, i 1, eq_ix2 i⟩
  rw [rx_apply, toXArr_apply]
  exact (congrFun e (ix3 b 0 mm)).trans (final3_apply m c b mm)

/-- What the result buffer holds once the host lines after the region have run: the shared tail of the two arrays
    of directed minima. The lines run from `afterRegion`; their composed function is `tailFn` of the two outputs
    reshaped (`kernel_tail`), and the two reshaped outputs are those arrays. -/
theorem tail_result (c : Dev nD) :
    Pipeline.afterTail₀ cfgs (dats m) 0 (V0 m) tailOps c main_v40
      = outVal (m ((c.tc : Thread nD τ).loc main_arg0)) (m ((c.tc : Thread nD τ).loc main_arg1)) := by
  unfold Pipeline.afterTail₀
  refine (kernel_tail (afterRegion m c)).trans ?_
  unfold outVal
  exact congrArg₂ tailFn (ry_afterRegion m c) (rx_afterRegion m c)

theorem kernel_run : θ_run defs (onTc (τ := τ) (main (F := Ideal))) ⟨m, fun _ => 0, ρ⟩ (fun r => ∀ c : Dev nD,
      r.2.mem ((c.tc : Thread nD τ).loc main_v40) = outVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun _ h c => ⟨?_, ?_, ?_⟩) (run_main m ρ)
  · exact ((h c).2 main_v40 (Pipeline.mem_restRefs_of main_v40 (by decide) (by decide))).trans (tail_result m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)

end Cert.KernelIdeal.Hand

end
-- ==== Proof.RefRun.lean ====
/-
  The reference program as one straight line of operations, and its run.

  The entry function calls four private functions: a standard deviation over the 4096 points of each batch, which
  calls a variance, which calls a select on a scalar condition; and an elementwise select. A call runs the callee's
  operations on the caller's operands, every value of the callee's body in a buffer that belongs to that one call, and
  the callee's returned value is the buffer the caller then reads. Substituting the bodies at the call sites — the
  standard deviation twice (once per directed distance), inside each its variance and inside that its select, and the
  elementwise select twice — leaves 121 operations: 27, the first standard deviation's 24 (20 of the variance, 3 of its
  select, the square root), 12, the first select's 2, 10, the second standard deviation's 24, 8; then 4, the second
  select's 2, and the last 8.

  That the entry function IS this line is associativity of sequencing and nothing else. The run then says: started
  from any memory, the program terminates with every buffer holding the fold of these operations over what the memory
  held; and since no operation writes an argument, both arguments end as they began.
-/
import proofs.«140159_j10625749090595_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's 121 operations in order, every call replaced by its callee's operations over that call's
    own buffers. -/
abbrev ops : List (HloOp τ sig (Elt F)) :=
  [ -- the squared norms of both clouds, their inner products, and the squared distances
    binary main_arg0 main_arg0 main_v0 mulf,
    nullary main_cst (constant S_ .f32 0x00000000#32),
    binary main_v0 main_cst main_v1 (fun x v => Host.reduceAdd x v reducesTo_S8x4096x3_S8x4096_d2 h_S_),
    binary main_arg1 main_arg1 main_v2 mulf,
    nullary main_cst_0 (constant S_ .f32 0x00000000#32),
    binary main_v2 main_cst_0 main_v3 (fun x v => Host.reduceAdd x v reducesTo_S8x4096x3_S8x4096_d2 h_S_),
    binary main_arg0 main_arg1 main_v4 (fun l r => Host.dotGeneral dot_S8x4096x3_S8x4096x3_S8x4096x4096_2_2_1_1_0_0 none l r),
    unary main_v1 main_v5 (broadcastInDim S8x4096x1 ![0, 1] bcast_S8x4096_S8x4096x1_0_1),
    unary main_v3 main_v6 (broadcastInDim S8x1x4096 ![0, 2] bcast_S8x4096_S8x1x4096_0_2),
    unary main_v5 main_v7 (broadcastInDim S8x4096x4096 ![0, 1, 2] bcast_S8x4096x1_S8x4096x4096_0_1_2),
    unary main_v6 main_v8 (broadcastInDim S8x4096x4096 ![0, 1, 2] bcast_S8x1x4096_S8x4096x4096_0_1_2),
    binary main_v7 main_v8 main_v9 addf,
    nullary main_cst_1 (constant S_ .f32 0x40000000#32),
    unary main_cst_1 main_v10 (broadcastInDim S8x4096x4096 ![] bcast_S_S8x4096x4096),
    binary main_v10 main_v4 main_v11 mulf,
    binary main_v9 main_v11 main_v12 subf,
    -- the two directed minima
    nullary main_cst_2 (constant S_ .f32 0x7F800000#32),
    binary main_v12 main_cst_2 main_v13 (fun x v => Host.reduce FloatOps.minimumf x v reducesTo_S8x4096x4096_S8x4096_d2 h_S_),
    nullary main_cst_3 (constant S_ .f32 0x7F800000#32),
    binary main_v12 main_cst_3 main_v14 (fun x v => Host.reduce FloatOps.minimumf x v reducesTo_S8x4096x4096_S8x4096_d1 h_S_),
    -- the first minimum's mean over the points
    nullary main_cst_4 (constant S_ .f32 0x00000000#32),
    binary main_v13 main_cst_4 main_v15 (fun x v => Host.reduceAdd x v reducesTo_S8x4096_S8_d1 h_S_),
    unary main_v15 main_v16 (broadcastInDim S8x1 ![0] bcast_S8_S8x1_0),
    nullary main_cst_5 (constant S_ .f32 0x45800000#32),
    unary main_cst_5 main_v17 (broadcastInDim S8x1 ![] bcast_S_S8x1),
    binary main_v16 main_v17 main_v18 Host.divf,
    nullary main_c (constantI S_ 32 1#32),
    -- its standard deviation: the variance's twenty, the scalar select's three, the square root
    TRef.nullary main_call0.call0.cst (constant S_ .f32 0x00000000#32),
    TRef.binary (.of main_v13 : TRef sig ⟨S8x4096, .f32⟩) main_call0.call0.cst main_call0.call0.v0 (fun x v => Host.reduceAdd x v reducesTo_S8x4096_S8_d1 h_S_),
    TRef.unary main_call0.call0.v0 main_call0.call0.v1 (broadcastInDim S8x1 ![0] bcast_S8_S8x1_0),
    TRef.nullary main_call0.call0.cst_0 (constant S_ .f32 0x45800000#32),
    TRef.unary main_call0.call0.cst_0 main_call0.call0.v2 (broadcastInDim S8x1 ![] bcast_S_S8x1),
    TRef.binary main_call0.call0.v1 main_call0.call0.v2 main_call0.call0.v3 Host.divf,
    TRef.unary main_call0.call0.v3 main_call0.call0.v4 (broadcastInDim S8x4096 ![0, 1] bcast_S8x1_S8x4096_0_1),
    TRef.binary (.of main_v13 : TRef sig ⟨S8x4096, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x45800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x4096_S8_d1 h_S_),
    TRef.unary main_call0.call0.v9 main_call0.call0.v10 (broadcastInDim S8x1 ![0] bcast_S8_S8x1_0),
    TRef.unary main_call0.call0.v8 main_call0.call0.v11 (broadcastInDim S8x1 ![] bcast_S_S8x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x1 ![] bcast_S_S8x1),
    TRef.ternary main_call0.call0.v13 main_call0.call0.v12 main_call0.call0.call0.v1 main_call0.call0.call0.v2 (fun p a b => select (broadcastInDim S8x1 ![] bcast_S_S8x1 p) a b),
    TRef.unary main_call0.call0.call0.v2 main_call0.v1 Host.sqrt,
    -- which points are kept (those above the mean less half a standard deviation), and how many
    unary main_v18 main_v20 (broadcastInDim S8x4096 ![0, 1] bcast_S8x1_S8x4096_0_1),
    binary main_v13 main_v20 main_v21 subf,
    nullary main_cst_6 (constant S_ .f32 0xBF000000#32),
    unary main_cst_6 main_v22 (broadcastInDim S8x1 ![] bcast_S_S8x1),
    binary main_v22 main_v19 main_v23 mulf,
    unary main_v23 main_v24 (broadcastInDim S8x4096 ![0, 1] bcast_S8x1_S8x4096_0_1),
    binary main_v21 main_v24 main_v25 (cmpf .ogt),
    unary main_v25 main_v26 (extui 32 · natLt_1_32),
    nullary main_c_7 (constantI S_ 32 0#32),
    binary main_v26 main_c_7 main_v27 (fun x v => Host.reduce IntOp.addi x v reducesTo_S8x4096_S8_d1 h_S_),
    unary main_v27 main_v28 (sitofp .f32),
    nullary main_cst_8 (constant S_ .f32 0x00000000#32),
    -- the kept points' values, zero elsewhere
    TRef.unary (.of main_cst_8 : TRef sig ⟨S_, .f32⟩) main_call1.v0 (broadcastInDim S8x4096 ![] bcast_S_S8x4096),
    TRef.ternary (.of main_v25 : TRef sig ⟨S8x4096, .i1⟩) (.of main_v13 : TRef sig ⟨S8x4096, .f32⟩) main_call1.v0 main_call1.v1 select,
    -- their mean; then the second minimum's mean over the points
    nullary main_cst_9 (constant S_ .f32 0x00000000#32),
    binary main_v29 main_cst_9 main_v30 (fun x v => Host.reduceAdd x v reducesTo_S8x4096_S8_d1 h_S_),
    binary main_v30 main_v28 main_v31 Host.divf,
    nullary main_cst_10 (constant S_ .f32 0x00000000#32),
    binary main_v14 main_cst_10 main_v32 (fun x v => Host.reduceAdd x v reducesTo_S8x4096_S8_d1 h_S_),
    unary main_v32 main_v33 (broadcastInDim S8x1 ![0] bcast_S8_S8x1_0),
    nullary main_cst_11 (constant S_ .f32 0x45800000#32),
    unary main_cst_11 main_v34 (broadcastInDim S8x1 ![] bcast_S_S8x1),
    binary main_v33 main_v34 main_v35 Host.divf,
    nullary main_c_12 (constantI S_ 32 1#32),
    -- its standard deviation, as before
    TRef.nullary main_call2.call0.cst (constant S_ .f32 0x00000000#32),
    TRef.binary (.of main_v14 : TRef sig ⟨S8x4096, .f32⟩) main_call2.call0.cst main_call2.call0.v0 (fun x v => Host.reduceAdd x v reducesTo_S8x4096_S8_d1 h_S_),
    TRef.unary main_call2.call0.v0 main_call2.call0.v1 (broadcastInDim S8x1 ![0] bcast_S8_S8x1_0),
    TRef.nullary main_call2.call0.cst_0 (constant S_ .f32 0x45800000#32),
    TRef.unary main_call2.call0.cst_0 main_call2.call0.v2 (broadcastInDim S8x1 ![] bcast_S_S8x1),
    TRef.binary main_call2.call0.v1 main_call2.call0.v2 main_call2.call0.v3 Host.divf,
    TRef.unary main_call2.call0.v3 main_call2.call0.v4 (broadcastInDim S8x4096 ![0, 1] bcast_S8x1_S8x4096_0_1),
    TRef.binary (.of main_v14 : TRef sig ⟨S8x4096, .f32⟩) main_call2.call0.v4 main_call2.call0.v5 subf,
    TRef.binary main_call2.call0.v5 main_call2.call0.v5 main_call2.call0.v6 mulf,
    TRef.unary (.of main_c_12 : TRef sig ⟨S_, .i32⟩) main_call2.call0.v7 (sitofp .f32),
    TRef.nullary main_call2.call0.cst_1 (constant S_ .f32 0x45800000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S8x4096_S8_d1 h_S_),
    TRef.unary main_call2.call0.v9 main_call2.call0.v10 (broadcastInDim S8x1 ![0] bcast_S8_S8x1_0),
    TRef.unary main_call2.call0.v8 main_call2.call0.v11 (broadcastInDim S8x1 ![] bcast_S_S8x1),
    TRef.binary main_call2.call0.v10 main_call2.call0.v11 main_call2.call0.v12 Host.divf,
    TRef.nullary main_call2.call0.cst_3 (constant S_ .f32 0x00000000#32),
    TRef.binary main_call2.call0.v8 main_call2.call0.cst_3 main_call2.call0.v13 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S8x1 ![] bcast_S_S8x1),
    TRef.ternary main_call2.call0.v13 main_call2.call0.v12 main_call2.call0.call0.v1 main_call2.call0.call0.v2 (fun p a b => select (broadcastInDim S8x1 ![] bcast_S_S8x1 p) a b),
    TRef.unary main_call2.call0.call0.v2 main_call2.v1 Host.sqrt,
    -- which points are kept, and how many
    unary main_v35 main_v37 (broadcastInDim S8x4096 ![0, 1] bcast_S8x1_S8x4096_0_1),
    binary main_v14 main_v37 main_v38 subf,
    nullary main_cst_13 (constant S_ .f32 0xBF000000#32),
    unary main_cst_13 main_v39 (broadcastInDim S8x1 ![] bcast_S_S8x1),
    binary main_v39 main_v36 main_v40 mulf,
    unary main_v40 main_v41 (broadcastInDim S8x4096 ![0, 1] bcast_S8x1_S8x4096_0_1),
    binary main_v38 main_v41 main_v42 (cmpf .ogt),
    unary main_v42 main_v43 (extui 32 · natLt_1_32),
    nullary main_c_14 (constantI S_ 32 0#32),
    binary main_v43 main_c_14 main_v44 (fun x v => Host.reduce IntOp.addi x v reducesTo_S8x4096_S8_d1 h_S_),
    unary main_v44 main_v45 (sitofp .f32),
    nullary main_cst_15 (constant S_ .f32 0x00000000#32),
    -- the kept points' values, zero elsewhere
    TRef.unary (.of main_cst_15 : TRef sig ⟨S_, .f32⟩) main_call3.v0 (broadcastInDim S8x4096 ![] bcast_S_S8x4096),
    TRef.ternary (.of main_v42 : TRef sig ⟨S8x4096, .i1⟩) (.of main_v14 : TRef sig ⟨S8x4096, .f32⟩) main_call3.v0 main_call3.v1 select,
    -- their mean; the two means added; the mean of that over the eight batches
    nullary main_cst_16 (constant S_ .f32 0x00000000#32),
    binary main_v46 main_cst_16 main_v47 (fun x v => Host.reduceAdd x v reducesTo_S8x4096_S8_d1 h_S_),
    binary main_v47 main_v45 main_v48 Host.divf,
    binary main_v31 main_v48 main_v49 addf,
    nullary main_cst_17 (constant S_ .f32 0x00000000#32),
    binary main_v49 main_cst_17 main_v50 (fun x v => Host.reduceAdd x v reducesTo_S8_S_d0 h_S_),
    nullary main_cst_18 (constant S_ .f32 0x41000000#32),
    binary main_v50 main_cst_18 main_v51 Host.divf ]

-- a chain of 121 binds, each nested in the one before it: re-associating the chain descends to that depth
set_option maxRecDepth 8192 in
set_option maxHeartbeats 4000000 in
/-- The entry function is that straight line: with the callees' definitions unfolded at their calls, both sides are
    one chain of single steps once sequencing is re-associated. -/
theorem main_eq (c : Dev nD) : main (F := F) c = seq ops := by
  simp only [main, main_part0, main_part1, fn_std.body, fn_var.body, fn_where.body, fn_where_0.body, seq, bind_assoc, pure_bind]
  rfl

/-- No buffer of this program is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨-- 27
    binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub ..,
    nullary_bufs_sub .., binary_bufs_sub .., nullary_bufs_sub .., binary_bufs_sub ..,
    nullary_bufs_sub .., binary_bufs_sub .., unary_bufs_sub .., nullary_bufs_sub .., unary_bufs_sub .., binary_bufs_sub ..,
    nullary_bufs_sub ..,
    -- 24
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    -- 12
    unary_bufs_sub .., binary_bufs_sub .., nullary_bufs_sub .., unary_bufs_sub .., binary_bufs_sub .., unary_bufs_sub ..,
    binary_bufs_sub .., unary_bufs_sub .., nullary_bufs_sub .., binary_bufs_sub .., unary_bufs_sub .., nullary_bufs_sub ..,
    -- 2
    unary_bufs_sub .., ternary_bufs_sub ..,
    -- 10
    nullary_bufs_sub .., binary_bufs_sub .., binary_bufs_sub .., nullary_bufs_sub .., binary_bufs_sub .., unary_bufs_sub ..,
    nullary_bufs_sub .., unary_bufs_sub .., binary_bufs_sub .., nullary_bufs_sub ..,
    -- 24
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    -- 12
    unary_bufs_sub .., binary_bufs_sub .., nullary_bufs_sub .., unary_bufs_sub .., binary_bufs_sub .., unary_bufs_sub ..,
    binary_bufs_sub .., unary_bufs_sub .., nullary_bufs_sub .., binary_bufs_sub .., unary_bufs_sub .., nullary_bufs_sub ..,
    -- 2
    unary_bufs_sub .., ternary_bufs_sub ..,
    -- 8
    nullary_bufs_sub .., binary_bufs_sub .., binary_bufs_sub .., binary_bufs_sub .., nullary_bufs_sub .., binary_bufs_sub ..,
    nullary_bufs_sub .., binary_bufs_sub ..⟩

/-- At the compiled mesh, for any float values, from any memory with zero counters: every weakly fair execution of the
    entry function terminates, and every final state has each buffer at the operations' fold over what the memory
    held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument: it ends as it began. -/
theorem arg0_eq (V : Valuation τ sig (Elt F)) :
    after ops V (main_arg0 : DevRef τ sig) = V (main_arg0 : DevRef τ sig) := by
  after_results_simp

/-- Nor the second. -/
theorem arg1_eq (V : Valuation τ sig (Elt F)) :
    after ops V (main_arg1 : DevRef τ sig) = V (main_arg1 : DevRef τ sig) := by
  after_results_simp

end Cert.ReferenceIdeal.Hand

end
-- ==== Proof.RefDefs.lean ====
/-
  The reference's matrix of squared distances and its two directed minima, as terms over the two input arrays.

  d2ref x y is, at (b, n, m), (|x_n|² + |y_m|²) − 2·⟨x_n, y_m⟩ in exactly that grouping: the two squared norms are
  sums along the coordinate axis from the zero word, the first spread along the last axis and the second along the
  middle one, added; from that sum is subtracted the word of 2 times the batched product of x and y contracted over
  the coordinate axis. minY is its minimum along the last axis and minX its minimum along the middle axis, both from
  the word of +∞.
-/
import proofs.«140159_j10625749090595_1_alg».proof.Proof.Gen.ReferenceIdeal
import Idealize.ShloMosaic.PureOps.Ideal

noncomputable section

namespace Cert.ReferenceIdeal.Hand

open Idealize.ShloMosaic
open Cert.ReferenceIdeal Cert.ReferenceIdeal.Facts₀

/-- The matrix of squared distances between the points of x and the points of y, batch by batch:
    (|x_n|² + |y_m|²) − 2·⟨x_n, y_m⟩ at (b, n, m). -/
def d2ref (x y : FVec Ideal S8x4096x3 .f32) : FVec Ideal S8x4096x4096 .f32 :=
  subf
    (addf
      (broadcastInDim S8x4096x4096 ![0, 1, 2] bcast_S8x4096x1_S8x4096x4096_0_1_2
        (broadcastInDim S8x4096x1 ![0, 1] bcast_S8x4096_S8x4096x1_0_1
          (Host.reduceAdd (mulf x x) (constant (F := Ideal) S_ .f32 0x00000000#32) reducesTo_S8x4096x3_S8x4096_d2 h_S_)))
      (broadcastInDim S8x4096x4096 ![0, 1, 2] bcast_S8x1x4096_S8x4096x4096_0_1_2
        (broadcastInDim S8x1x4096 ![0, 2] bcast_S8x4096_S8x1x4096_0_2
          (Host.reduceAdd (mulf y y) (constant (F := Ideal) S_ .f32 0x00000000#32) reducesTo_S8x4096x3_S8x4096_d2 h_S_))))
    (mulf
      (broadcastInDim S8x4096x4096 ![] bcast_S_S8x4096x4096 (constant (F := Ideal) S_ .f32 0x40000000#32))
      (Host.dotGeneral dot_S8x4096x3_S8x4096x3_S8x4096x4096_2_2_1_1_0_0 none x y))

/-- For each point of x, the least squared distance to a point of y: the minimum of the matrix along its last axis,
    from +∞. -/
def minY (x y : FVec Ideal S8x4096x3 .f32) : FVec Ideal S8x4096 .f32 :=
  Host.reduce FloatOps.minimumf (d2ref x y) (constant (F := Ideal) S_ .f32 0x7F800000#32) reducesTo_S8x4096x4096_S8x4096_d2 h_S_

/-- For each point of y, the least squared distance to a point of x: the minimum of the matrix along its middle axis,
    from +∞. -/
def minX (x y : FVec Ideal S8x4096x3 .f32) : FVec Ideal S8x4096 .f32 :=
  Host.reduce FloatOps.minimumf (d2ref x y) (constant (F := Ideal) S_ .f32 0x7F800000#32) reducesTo_S8x4096x4096_S8x4096_d1 h_S_

end Cert.ReferenceIdeal.Hand

end
-- ==== Proof.RefOut.lean ====
/-
  What the reference's result buffer holds after its 121 operations, as one term of the two arguments.

  The line is read in two stretches. The first twenty operations build the matrix of squared distances from the two
  arguments and take its minimum along the last axis and along the middle axis: after them the two buffers of directed
  minima hold minY and minX of the arguments. The remaining hundred and one read neither the arguments nor the matrix
  again, only those two buffers: operation for operation and in the same order they are the host computation that
  follows the distance kernel in the other program — the masked mean of each array of minima, the two added, the
  mean over the eight batches. So from ANY contents W they leave in the result buffer that computation applied to
  what W holds at the two buffers of minima. The fold over the whole line is the second stretch's fold over the
  first's, which composes the two facts.

  Each fact is a reading of the fold: an operation's value at the buffer it writes, every other buffer untouched,
  the operations composed in order. The sums, the minima and the integer count are compared as written, never
  opened: nothing here looks inside them.
-/
import proofs.«140159_j10625749090595_1_alg».proof.Proof.RefRun
import proofs.«140159_j10625749090595_1_alg».proof.Proof.RefDefs
import proofs.«140159_j10625749090595_1_alg».proof.Proof.TailFn
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

/-- The whole line is its first twenty operations followed by the rest. -/
theorem after_ops (V : Valuation τ sig (Elt Ideal)) :
    after ops V = after (ops.drop 20) (after (ops.take 20) V) := by
  rw [← after_append, List.take_append_drop]

attribute [local irreducible] Host.reduce Host.reduceAdd in
set_option maxRecDepth 16384 in
set_option maxHeartbeats 2000000 in
/-- After the first twenty operations the first buffer of minima holds, for each point of the first cloud, the least
    squared distance to a point of the second. -/
theorem dist_v13 (V : Valuation τ sig (Elt Ideal)) :
    after (ops.take 20) V (main_v13 : DevRef τ sig)
      = minY (V (main_arg0 : DevRef τ sig)) (V (main_arg1 : DevRef τ sig)) := by
  simp only [ops, List.take_succ_cons, List.take_zero, after_cons, after_nil]
  rfl

attribute [local irreducible] Host.reduce Host.reduceAdd in
set_option maxRecDepth 16384 in
set_option maxHeartbeats 2000000 in
/-- And the second, for each point of the second cloud, the least squared distance to a point of the first. -/
theorem dist_v14 (V : Valuation τ sig (Elt Ideal)) :
    after (ops.take 20) V (main_v14 : DevRef τ sig)
      = minX (V (main_arg0 : DevRef τ sig)) (V (main_arg1 : DevRef τ sig)) := by
  simp only [ops, List.take_succ_cons, List.take_zero, after_cons, after_nil]
  rfl

attribute [local irreducible] Host.reduce Host.reduceAdd in
set_option maxRecDepth 16384 in
set_option maxHeartbeats 2000000 in
/-- From any contents, the remaining hundred and one operations leave in the result buffer the masked means of the
    two buffers of minima, added, averaged over the eight batches. -/
theorem tail_v51 (W : Valuation τ sig (Elt Ideal)) :
    after (ops.drop 20) W (main_v51 : DevRef τ sig)
      = Cert.KernelIdeal.Hand.tailFn (W (main_v13 : DevRef τ sig)) (W (main_v14 : DevRef τ sig)) := by
  simp only [ops, List.drop_succ_cons, List.drop_zero, after_cons, after_nil]
  rfl

/-- The result buffer after the whole line: that computation applied to the two directed minima of the arguments. -/
theorem ref_out (V : Valuation τ sig (Elt Ideal)) :
    after ops V (main_v51 : DevRef τ sig)
      = Cert.KernelIdeal.Hand.tailFn (minY (V (main_arg0 : DevRef τ sig)) (V (main_arg1 : DevRef τ sig)))
          (minX (V (main_arg0 : DevRef τ sig)) (V (main_arg1 : DevRef τ sig))) := by
  rw [after_ops, tail_v51, dist_v13, dist_v14]

end Cert.ReferenceIdeal.Hand

end
-- ==== Proof.RefValue.lean ====
/-
  The reference's matrix of squared distances and its two directed minima, read at an index.

  At (b, n, m) the matrix is (|x_n|² + |y_m|²) − 2·⟨x_n, y_m⟩: each squared norm is the sum over the three coordinates
  of the squares (the sum starts from the zero word, and 0 + s = s), spread along the axis it does not depend on; the
  inner product is the batched product contracted over the three coordinates; 2 is the same word on both sides and is
  never evaluated. Each minimum is a fold of `min`, which is commutative and associative, from the word of +∞ over the
  4096 indices of the reduced axis: the indices that drop to (b, n) along the last axis are exactly (b, n, m) for the
  4096 values of m, and along the middle axis exactly (b, n, m) for the 4096 values of n. The word of +∞ is the
  specification's own seed and is never evaluated either.
-/
import proofs.«140159_j10625749090595_1_alg».proof.Proof.RefDefs
import proofs.«140159_j10625749090595_1_alg».proof.Proof.ChamferSpec
import Idealize.ShloMosaic.PureOps.Ideal.Laws
import Idealize.ShloMosaic.PureOps.Reduce
import Idealize.ShloMosaic.Lib.ValueIdx
import Idealize.ShloMosaic.Lib.Pipeline.Value
import Idealize.ShloMosaic.Lib.IdealHost

noncomputable section

namespace Cert.ReferenceIdeal.Hand

open Idealize.ShloMosaic Idealize.ShloMosaic.ValueIdx
open Cert.ReferenceIdeal Cert.ReferenceIdeal.Facts₀

/-! ## A reduced index with the dropped coordinate put back, at coordinates -/

/-- Over the reduced index (b, n) of an [8, 4096, 3] array summed along its last axis, coordinate `k` put back
    gives (b, n, k). -/
theorem lift_point (h : S8x4096x3.Reduces [2] S8x4096) (b : Fin 8) (n : Fin 4096) (k : Fin (S8x4096x3.size 2)) :
    h.lift (ix2 b n) k = ix3 b n (⟨k.val, k.isLt⟩ : Fin 3) := by
  funext c; apply Fin.ext
  match c with
  | ⟨0, _⟩ => rfl
  | ⟨1, _⟩ => rfl
  | ⟨2, _⟩ => rfl

/-- Over the reduced index (b, n) of an [8, 4096, 4096] array reduced along its last axis, coordinate `k` put
    back gives (b, n, k). -/
theorem lift_last (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  match c with
  | ⟨0, _⟩ => rfl
  | ⟨1, _⟩ => rfl
  | ⟨2, _⟩ => rfl

/-- Over the reduced index (b, m) of an [8, 4096, 4096] array reduced along its middle axis, coordinate `k`
    put back gives (b, k, m). -/
theorem lift_mid (h : S8x4096x4096.Reduces [1] S8x4096) (b : Fin 8) (mm : Fin 4096) (k : Fin (S8x4096x4096.size 1)) :
    h.lift (ix2 b mm) k = ix3 b (⟨k.val, k.isLt⟩ : Fin 4096) mm := by
  funext c; apply Fin.ext
  match c with
  | ⟨0, _⟩ => rfl
  | ⟨1, _⟩ => rfl
  | ⟨2, _⟩ => rfl

/-! ## The squared norms -/

/-- The sum along the last axis from the zero word: 0 + Σ_d v(b, n, d) = Σ_d v(b, n, d). -/
theorem sumLast_apply (h' : S8x4096x3.ReducesTo [2] S8x4096) (hu : 0 < S_.numel) (v : FVec Ideal S8x4096x3 .f32)
    (b : Fin 8) (n : Fin 4096) :
    Host.reduceAdd v (constant (F := Ideal) S_ .f32 0x00000000#32) h' hu (ix2 b n) = ∑ d : Fin 3, v (ix3 b n d) := by
  have h : S8x4096x3.Reduces [2] S8x4096 := by decide
  rw [hostReduceAdd_apply, Ideal.hostReduceAdd_single h' h, constant_apply, Ideal.ofBits_zero_f32, zero_add]
  exact Finset.sum_congr rfl fun k _ => congrArg v (lift_point h b n k)

/-- Σ_d x(b, n, d)·x(b, n, d) is the squared norm of point n of batch b. -/
theorem sumsq_apply (h' : S8x4096x3.ReducesTo [2] S8x4096) (hu : 0 < S_.numel) (x : FVec Ideal S8x4096x3 .f32)
    (b : Fin 8) (n : Fin 4096) :
    Host.reduceAdd (mulf x x) (constant (F := Ideal) S_ .f32 0x00000000#32) h' hu (ix2 b n)
      = Chamfer.sq (Chamfer.cloud x) b n :=
  sumLast_apply h' hu (mulf x x) b n

/-! ## The two broadcasts -/

/-- A per-(b, n) value made a column [8, 4096, 1] and spread along the last axis reads, at (b, n, m), the value at
    (b, n). -/
theorem spreadRow_apply (h1 : S8x4096.BroadcastsInDim S8x4096x1 (![0, 1] : Fin 2 → Fin S8x4096x1.rank))
    (h2 : S8x4096x1.BroadcastsInDim S8x4096x4096 (![0, 1, 2] : Fin 3 → Fin S8x4096x4096.rank))
    (v : S8x4096.Idx → EReal) (b : Fin 8) (n mm : Fin 4096) :
    broadcastInDim S8x4096x4096 ![0, 1, 2] h2 (broadcastInDim S8x4096x1 ![0, 1] h1 v) (ix3 b n mm) = v (ix2 b n) := by
  rw [broadcastInDim_apply _ h2 _ (ix3 b n mm) (ix3 b n (0 : Fin 1)) (fun a => by
    match a with
    | ⟨0, _⟩ => rfl
    | ⟨1, _⟩ => rfl
    | ⟨2, _⟩ => rfl)]
  exact broadcastInDim_apply _ h1 v (ix3 b n (0 : Fin 1)) (ix2 b n) (fun a => by
    match a with
    | ⟨0, _⟩ => rfl
    | ⟨1, _⟩ => rfl)

/-- A per-(b, m) value made a row [8, 1, 4096] and spread along the middle axis reads, at (b, n, m), the value at
    (b, m). -/
theorem spreadCol_apply (h1 : S8x4096.BroadcastsInDim S8x1x4096 (![0, 2] : Fin 2 → Fin S8x1x4096.rank))
    (h2 : S8x1x4096.BroadcastsInDim S8x4096x4096 (![0, 1, 2] : Fin 3 → Fin S8x4096x4096.rank))
    (v : S8x4096.Idx → EReal) (b : Fin 8) (n mm : Fin 4096) :
    broadcastInDim S8x4096x4096 ![0, 1, 2] h2 (broadcastInDim S8x1x4096 ![0, 2] h1 v) (ix3 b n mm) = v (ix2 b mm) := by
  rw [broadcastInDim_apply _ h2 _ (ix3 b n mm) (ix3 b (0 : Fin 1) mm) (fun a => by
    match a with
    | ⟨0, _⟩ => rfl
    | ⟨1, _⟩ => rfl
    | ⟨2, _⟩ => rfl)]
  exact broadcastInDim_apply _ h1 v (ix3 b (0 : Fin 1) mm) (ix2 b mm) (fun a => by
    match a with
    | ⟨0, _⟩ => rfl
    | ⟨1, _⟩ => rfl)

/-! ## The inner products -/

/-- The left operand's index at output (b, n, m) and contraction position q: batch b … -/
theorem lhs_axis0 (i : S8x4096x4096.Idx) (q : dot_S8x4096x3_S8x4096x3_S8x4096x4096_2_2_1_1_0_0.contr.Idx) :
    (dot_S8x4096x3_S8x4096x3_S8x4096x4096_2_2_1_1_0_0.lhsIdx i q 0).val = (i 0).val := by
  unfold DotDims.lhsIdx
  rw [dif_pos (show (0 : Fin S8x4096x3.rank) ∈ dot_S8x4096x3_S8x4096x3_S8x4096x4096_2_2_1_1_0_0.lhsBatch by decide)]
  rfl
/-- … point n … -/
theorem lhs_axis1 (i : S8x4096x4096.Idx) (q : dot_S8x4096x3_S8x4096x3_S8x4096x4096_2_2_1_1_0_0.contr.Idx) :
    (dot_S8x4096x3_S8x4096x3_S8x4096x4096_2_2_1_1_0_0.lhsIdx i q 1).val = (i 1).val := by
  unfold DotDims.lhsIdx
  rw [dif_neg (show ¬(1 : Fin S8x4096x3.rank) ∈ dot_S8x4096x3_S8x4096x3_S8x4096x4096_2_2_1_1_0_0.lhsBatch by decide),
    dif_pos (show (1 : Fin S8x4096x3.rank) ∈ dot_S8x4096x3_S8x4096x3_S8x4096x4096_2_2_1_1_0_0.lhsNonContracting by decide)]
  rfl
/-- … coordinate q. -/
theorem lhs_axis2 (i : S8x4096x4096.Idx) (q : dot_S8x4096x3_S8x4096x3_S8x4096x4096_2_2_1_1_0_0.contr.Idx) :
    (dot_S8x4096x3_S8x4096x3_S8x4096x4096_2_2_1_1_0_0.lhsIdx i q 2).val = (q ⟨0, by decide⟩).val :=
  dot_S8x4096x3_S8x4096x3_S8x4096x4096_2_2_1_1_0_0.lhsIdx_val_of_single rfl i q
/-- The right operand's: batch b … -/
theorem rhs_axis0 (i : S8x4096x4096.Idx) (q : dot_S8x4096x3_S8x4096x3_S8x4096x4096_2_2_1_1_0_0.contr.Idx) :
    (dot_S8x4096x3_S8x4096x3_S8x4096x4096_2_2_1_1_0_0.rhsIdx i q 0).val = (i 0).val := by
  unfold DotDims.rhsIdx
  rw [dif_pos (show (0 : Fin S8x4096x3.rank) ∈ dot_S8x4096x3_S8x4096x3_S8x4096x4096_2_2_1_1_0_0.rhsBatch by decide)]
  rfl
/-- … point m … -/
theorem rhs_axis1 (i : S8x4096x4096.Idx) (q : dot_S8x4096x3_S8x4096x3_S8x4096x4096_2_2_1_1_0_0.contr.Idx) :
    (dot_S8x4096x3_S8x4096x3_S8x4096x4096_2_2_1_1_0_0.rhsIdx i q 1).val = (i 2).val := by
  unfold DotDims.rhsIdx
  rw [dif_neg (show ¬(1 : Fin S8x4096x3.rank) ∈ dot_S8x4096x3_S8x4096x3_S8x4096x4096_2_2_1_1_0_0.rhsBatch by decide),
    dif_pos (show (1 : Fin S8x4096x3.rank) ∈ dot_S8x4096x3_S8x4096x3_S8x4096x4096_2_2_1_1_0_0.rhsNonContracting by decide)]
  rfl
/-- … coordinate q. -/
theorem rhs_axis2 (i : S8x4096x4096.Idx) (q : dot_S8x4096x3_S8x4096x3_S8x4096x4096_2_2_1_1_0_0.contr.Idx) :
    (dot_S8x4096x3_S8x4096x3_S8x4096x4096_2_2_1_1_0_0.rhsIdx i q 2).val = (q ⟨0, by decide⟩).val :=
  dot_S8x4096x3_S8x4096x3_S8x4096x4096_2_2_1_1_0_0.rhsIdx_val_of_single rfl i q

/-- The batched product contracted over the three coordinates reads, at (b, n, m), Σ_d x(b, n, d)·y(b, m, d): the
    contraction's one-axis index set is the three coordinates, and the two operand indices at coordinate d are
    (b, n, d) and (b, m, d). -/
theorem dot_apply (x y : FVec Ideal S8x4096x3 .f32) (b : Fin 8) (n mm : Fin 4096) :
    Host.dotGeneral dot_S8x4096x3_S8x4096x3_S8x4096x4096_2_2_1_1_0_0 none x y (ix3 b n mm)
      = Chamfer.dot (Chamfer.cloud x) (Chamfer.cloud y) b n mm := by
  simp only [Host.dotGeneral]
  rw [Ideal.dotGeneral_apply,
    ← Equiv.sum_comp (contrEquiv1 dot_S8x4096x3_S8x4096x3_S8x4096x4096_2_2_1_1_0_0 3 rfl rfl).symm]
  refine Finset.sum_congr rfl fun k _ => ?_
  have hk := contrEquiv1_symm_val dot_S8x4096x3_S8x4096x3_S8x4096x4096_2_2_1_1_0_0 3 rfl rfl k
  have el : dot_S8x4096x3_S8x4096x3_S8x4096x4096_2_2_1_1_0_0.lhsIdx (ix3 b n mm)
      ((contrEquiv1 dot_S8x4096x3_S8x4096x3_S8x4096x4096_2_2_1_1_0_0 3 rfl rfl).symm k) = ix3 b n k :=
    funext fun a => Fin.ext (by
      match a with
      | ⟨0, _⟩ => exact lhs_axis0 _ _
      | ⟨1, _⟩ => exact lhs_axis1 _ _
      | ⟨2, _⟩ => exact (lhs_axis2 _ _).trans hk)
  have er : dot_S8x4096x3_S8x4096x3_S8x4096x4096_2_2_1_1_0_0.rhsIdx (ix3 b n mm)
      ((contrEquiv1 dot_S8x4096x3_S8x4096x3_S8x4096x4096_2_2_1_1_0_0 3 rfl rfl).symm k) = ix3 b mm k :=
    funext fun a => Fin.ext (by
      match a with
      | ⟨0, _⟩ => exact rhs_axis0 _ _
      | ⟨1, _⟩ => exact rhs_axis1 _ _
      | ⟨2, _⟩ => exact (rhs_axis2 _ _).trans hk)
  rw [el, er]
  rfl

/-! ## The squared distances and their two minima -/

/-- The reference's matrix at (b, n, m): (|x_n|² + |y_m|²) − 2·⟨x_n, y_m⟩. -/
theorem d2ref_apply (x y : FVec Ideal S8x4096x3 .f32) (b : Fin 8) (n mm : Fin 4096) :
    d2ref x y (ix3 b n mm) = Chamfer.d2 (Chamfer.cloud x) (Chamfer.cloud y) b n mm := by
  unfold d2ref
  rw [subf_apply, addf_apply, mulf_apply, spreadRow_apply, spreadCol_apply, broadcastInDim_scalar_apply,
    constant_apply, sumsq_apply, sumsq_apply, dot_apply]
  rfl

/-- The minimum along the last axis from +∞, at (b, n): the fold of `min` over the 4096 points m of d2(b, n, m). -/
theorem minY_apply (x y : FVec Ideal S8x4096x3 .f32) (b : Fin 8) (n : Fin 4096) :
    minY x y (ix2 b n) = Chamfer.toY (Chamfer.cloud x) (Chamfer.cloud y) b n := by
  have h : S8x4096x4096.Reduces [2] S8x4096 := by decide
  unfold minY
  rw [Host.reduce_eq_fold_single FloatOps.minimumf (d2ref x y) _ _ h _]
  have hf : (d2ref x y ∘ h.lift (ix2 b n))
      = fun m : Fin 4096 => Chamfer.d2 (Chamfer.cloud x) (Chamfer.cloud y) b n m :=
    funext fun k => (congrArg (d2ref x y) (lift_last h b n k)).trans (d2ref_apply x y b n _)
  exact congrArg (fun f => Finset.fold min Chamfer.top f (Finset.univ : Finset (Fin 4096))) hf

/-- The minimum along the middle axis from +∞, at (b, m): the fold of `min` over the 4096 points n of d2(b, n, m). -/
theorem minX_apply (x y : FVec Ideal S8x4096x3 .f32) (b : Fin 8) (mm : Fin 4096) :
    minX x y (ix2 b mm) = Chamfer.toX (Chamfer.cloud x) (Chamfer.cloud y) b mm := by
  have h : S8x4096x4096.Reduces [1] S8x4096 := by decide
  unfold minX
  rw [Host.reduce_eq_fold_single FloatOps.minimumf (d2ref x y) _ _ h _]
  have hf : (d2ref x y ∘ h.lift (ix2 b mm))
      = fun n : Fin 4096 => Chamfer.d2 (Chamfer.cloud x) (Chamfer.cloud y) b n mm :=
    funext fun k => (congrArg (d2ref x y) (lift_mid h b mm k)).trans (d2ref_apply x y b _ mm)
  exact congrArg (fun f => Finset.fold min Chamfer.top f (Finset.univ : Finset (Fin 4096))) hf

end Cert.ReferenceIdeal.Hand

end
-- ==== Proof.RefFinal.lean ====
/-
  The idealized reference's run with its result named: @main's operations run in order; the result buffer holds the
  shared host tail applied to the reference's two arrays of directed minima, which index by index are the minima the
  mathematics names; no operation writes an argument.
-/
import proofs.«140159_j10625749090595_1_alg».proof.Proof.RefRun
import proofs.«140159_j10625749090595_1_alg».proof.Proof.RefOut
import proofs.«140159_j10625749090595_1_alg».proof.Proof.RefValue
import proofs.«140159_j10625749090595_1_alg».proof.Proof.OutVal

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's array of minima along the last axis is, entry by entry, each point of the first cloud's least
    squared distance to a point of the second: two arrays that agree at every (batch, point) are equal. -/
theorem minY_eq (x y : FVec Ideal S8x4096x3 .f32) : minY x y = Cert.KernelIdeal.Hand.toYArr x y := by
  funext i
  obtain ⟨b, n, rfl⟩ : ∃ (b : Fin 8) (n : Fin 4096), i = ValueIdx.ix2 b n := ⟨i 0, i 1, ValueIdx.eq_ix2 i⟩
  rw [minY_apply, Cert.KernelIdeal.Hand.toYArr_apply]

/-- Likewise along the middle axis: each point of the second cloud's least squared distance to a point of the first. -/
theorem minX_eq (x y : FVec Ideal S8x4096x3 .f32) : minX x y = Cert.KernelIdeal.Hand.toXArr x y := by
  funext i
  obtain ⟨b, n, rfl⟩ : ∃ (b : Fin 8) (n : Fin 4096), i = ValueIdx.ix2 b n := ⟨i 0, i 1, ValueIdx.eq_ix2 i⟩
  rw [minX_apply, Cert.KernelIdeal.Hand.toXArr_apply]

/-- From any memory with zero counters the reference terminates; its result buffer then holds the masked means of the
    two arrays of least squared distances, added and averaged over the batches, computed from what the two arguments
    held at launch; and both arguments hold what they held. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v51) = Cert.KernelIdeal.Hand.outVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c =>
      ⟨(h c main_v51).trans (by rw [ref_out, minY_eq, minX_eq]; rfl),
        (h c main_arg0).trans (arg0_eq _),
        (h c main_arg1).trans (arg1_eq _)⟩)
    (run_main m ρ)

end Cert.ReferenceIdeal.Hand

end
-- ==== Proof.lean ====
/-
  The certificate. Both programs compute, for two clouds x, y of 8 × 4096 points in 3-space, the matrix of squared
  distances d2[b,n,m] = (|x_n|² + |y_m|²) − 2·⟨x_n, y_m⟩, its two directed minima (each x point's least distance to y,
  each y point's least distance to x), a masked mean of each, their sum, and the mean over the 8 batches.

  The kernel program tiles the x points of a batch into 8 tiles of 512: per tile it forms the 512 × 4096 block of d2 from
  the tile and the batch's whole (transposed) y, takes the row minima — final for those x points — and the column minima,
  which it folds into a running minimum kept in a scratch across the batch's tiles and hands out at the last tile.
  At the ideal values minimum is commutative, associative and idempotent, so the running minimum over the tiles is the
  minimum over all 4096 points; sums over the three coordinates are the same sums; the grouping of d2 is the same on both
  sides; and the words for 2 and +∞ are the same words, never evaluated. No law that fails at infinities is used, so the
  finiteness precondition is never opened. After the minima the two programs apply the same host operations, carried
  as one function.

  Frames: the kernel program's, at either instance, from the pipeline's launch theorem with the scratch carried in the
  region invariant and the 103 host lines after the region; the reference's from its operations run in order. The ideal
  pass rewrote nothing, so the kernel's idealization is its own text.
-/
import proofs.«140159_j10625749090595_1_alg».proof.Defs
import proofs.«140159_j10625749090595_1_alg».proof.Proof.Gen.Kernel
import proofs.«140159_j10625749090595_1_alg».proof.Proof.Gen.KernelIdeal
import proofs.«140159_j10625749090595_1_alg».proof.Proof.Gen.ReferenceIdeal
import proofs.«140159_j10625749090595_1_alg».proof.Proof.Gen.Pre_finite_inputs
import proofs.«140159_j10625749090595_1_alg».proof.Proof.KbFrame
import proofs.«140159_j10625749090595_1_alg».proof.Proof.KiOut
import proofs.«140159_j10625749090595_1_alg».proof.Proof.RefFinal
import Idealize.ShloMosaic.Adequacy
import Idealize.ShloMosaic.Init

noncomputable section

namespace Cert.Proof

open Idealize.ShloMosaic Idealize.SL.Sem

/-- The word-level kernel program runs and leaves both arguments as launched. -/
theorem frame_k : Cert.frame_Kernel := fun m ρ _ => Cert.Kernel.Hand.frame m ρ
/-- So does its reading at the ideal values. -/
theorem frame_ki : Cert.frame_KernelIdeal := fun m ρ _ => Cert.KernelIdeal.Hand.frame m ρ
/-- So does the reference: its run with the result dropped. -/
theorem frame_ri : Cert.frame_ReferenceIdeal := fun m ρ _ =>
  (θ_run Cert.ReferenceIdeal.defs _ _).mono (fun _ h c => (h c).2) (Cert.ReferenceIdeal.Hand.ref_run m ρ)

/-- The ideal pass rewrote no operation. -/
theorem preserves : Cert.preserves_Kernel_KernelIdeal := trivial

/-- From memories agreeing on x and y both idealized programs end with the same scalar: the shared tail of the two
    arrays of directed minima of the one squared-distance matrix. -/
theorem algebraic : Cert.algebraic_KernelIdeal_ReferenceIdeal := by
  intro m ρ m' ρ' _ hagree
  refine ⟨fun c => Cert.KernelIdeal.Hand.outVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Hand.kernel_run m ρ, ?_⟩
  refine (θ_run Cert.ReferenceIdeal.defs _ _).mono (fun _ h c => ⟨(h c).1.trans ?_, (h c).2⟩)
    (Cert.ReferenceIdeal.Hand.ref_run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
